-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 256]⟩ ⟨2, ![1024, 512]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1, 256]⟩ ⟨2, ![1, 512]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Kernel.lean ====
abbrev S512x256 : Shape := ⟨2, ![512, 256]⟩
abbrev S1x256 : Shape := ⟨2, ![1, 256]⟩
abbrev S_ : Shape := ⟨0, ![]⟩
abbrev S256 : Shape := ⟨1, ![256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_12 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_11 : BitVec 32 := 2#32
  let v21 : BitVec 32 := Scalar.muli v6 c2_i32_11
  let v22 : BitVec 32 := Scalar.addi c0_i32_12 v21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_13 : BitVec 32 := 1#32
  let v23 : BitVec 32 := Scalar.muli v5 c1_i32_13
  let v24 : BitVec 32 := Scalar.addi v22 v23
  v24.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hcc0_scratch2 : 2 + S_.numel ≤ 4
  hcc0_scratch3 : 3 + S_.numel ≤ 4
  k0_dev1_lt : ∀ d0 : Dev nD, (k0_dev1 d0) < nD
  k0_dev2_lt : ∀ d0 : Dev nD, (k0_dev2 d0) < nD
  hstage0_0 : ∀ j, (stage0_0 j).IsWhole
  hstage0_1 : ∀ j, (stage0_1 j).IsWhole

variable [Facts₀]

abbrev cc0_scratch2 : DmaSems sig S_ := SemArray.consecutive 2 S_ hcc0_scratch2
abbrev cc0_scratch3 : DmaSems sig S_ := SemArray.consecutive 3 S_ hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x512 : Shape := ⟨2, ![1024, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S1024x512_S512_d0 : S1024x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.Partner.lean ====
/-
The exchange partner on the 2 × 2 mesh: device (x, y), numbered row-major as 2·x + y, exchanges its column
means with device (1 − x, y), that is with device (c + 2) mod 4. The pairing is an involution without fixed point.
-/
import Idealize.ShloMosaic.Signature

namespace Cert.Mean

open Idealize.ShloMosaic

/-- The partner of device `c`: the device with the other row coordinate and the same column coordinate. -/
def pr (c : Dev 4) : Dev 4 := ⟨(c.val + 2) % 4, Nat.mod_lt _ (by decide)⟩

theorem pr_pr (c : Dev 4) : pr (pr c) = c := by revert c; decide
theorem pr_ne (c : Dev 4) : pr c ≠ c := by revert c; decide
theorem pr_val (c : Dev 4) : (pr c).val = (c.val % 2 + 2) - 2 * (c.val / 2) := by revert c; decide

/-- The pairing as a permutation of the devices. -/
def prEquiv : Dev 4 ≃ Dev 4 := ⟨pr, pr, pr_pr, pr_pr⟩

end Cert.Mean
-- ==== Proof.KernelSched.lean ====
/-
The exchange protocol of the column-mean kernel on the 2 × 2 mesh, device by device.

Each device c signals its partner's barrier semaphore (one unit), forms its partial column means
(the sum of its 512 rows times 2⁻¹⁰) in a scratch row, waits for one unit on its own barrier semaphore,
copies the scratch row into the partner's landing row (crediting its own send semaphore and the partner's
receive semaphore), waits on both, and stores scratch row + landing row.

The barrier unit a device receives tells it that the partner is inside the kernel: with it comes the
partner's landing row (at whatever contents) and the fact that the partner's receive cell is at round 0.
The receive credit hands the owner its landing row holding the PARTNER's partial means; the send credit hands
back the scratch row holding the device's own partial means. A wait is allowed only at a level below what the
waiter still owes: barrier cells sit at level 1, receive cells at level 2, everything else at 0.
-/
import proofs.«900570_g7700000000000571_dist_mean_ax0_xy_m512_n256_v7x_xy2x2_bf16_1_alg».proof.Proof.Gen.Kernel
import proofs.«900570_g7700000000000571_dist_mean_ax0_xy_m512_n256_v7x_xy2x2_bf16_1_alg».proof.Proof.Gen.Kernel.Skeleton
import proofs.«900570_g7700000000000571_dist_mean_ax0_xy_m512_n256_v7x_xy2x2_bf16_1_alg».proof.Proof.Gen.Kernel.Launch
import proofs.«900570_g7700000000000571_dist_mean_ax0_xy_m512_n256_v7x_xy2x2_bf16_1_alg».proof.Proof.Partner
import Idealize.ShloMosaic.Lib.Pipeline.Launch
import Idealize.ShloMosaic.Lib.Pipeline.Kit
import Idealize.ShloMosaic.Lib.Tactic

noncomputable section

namespace Cert.KernelProof

open Cert.Kernel Cert.Kernel.Gen
open Cert.Mean (pr pr_pr pr_ne pr_val prEquiv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (one duty a round, named by `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner, as the kernel computes it -/

/-- Both device chains of the kernel (the signal's and the copy's) name the partner. -/
theorem dev1_eq (c : Dev nD) : (⟨k0_dev1 c, k0_dev1_lt c⟩ : Dev nD) = pr c := Fin.ext ((k0_dev1_eq c).trans (pr_val c).symm)
theorem dev2_eq (c : Dev nD) : (⟨k0_dev2 c, k0_dev2_lt c⟩ : Dev nD) = pr c := Fin.ext ((k0_dev2_eq c).trans (pr_val c).symm)

/-! ## The memrefs and cells -/

abbrev xM : Memref sig .tc .vmem S512x256 .f32 := Memref.whole cc0_stg0_0
abbrev oM : Memref sig .tc .vmem S1x256 .f32 := Memref.whole cc0_stg1_0
/-- the scratch row of partial means (the copy's source) and the landing row (its destination on the partner) -/
abbrev aM : Memref sig .tc .vmem S1x256 .f32 := Memref.whole cc0_scratch0
abbrev rM : Memref sig .tc .vmem S1x256 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S1x256 .f32).view.dmaCredit
theorem N_pos : 0 < N := View.dmaCredit_pos _ (by decide)

/-! ## Contents -/

/-- Device `c`'s block of the input as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s partial column means: the sum of its block's rows, times 2⁻¹⁰. -/
def accV (c : Dev nD) : (cc0_scratch0 : Ref sig .tc).ty.Contents (Elt F) := k0_pay2 (xstg m ρ c)

/-- What lands on device `c`: the partner's partial means. -/
def landed (c : Dev nD) : Buf (Elt F) ((rM : Memref sig .tc .vmem S1x256 .f32).view.loc (c : Thread nD τ)) := accV m ρ (pr c)

omit [FloatOps F] in
theorem landed_eq (c : Dev nD) (fd : Buf (Elt F) ((rM : Memref sig .tc .vmem S1x256 .f32).view.loc (c : Thread nD τ))) (fs : (cc0_scratch0 : Ref sig .tc).ty.Contents (Elt F)) :
    (rM : Memref sig .tc .vmem S1x256 .f32).view.write (Elt F) fd ((aM : Memref sig .tc .vmem S1x256 .f32).view.read (Elt F) fs) Finset.univ = fs := by
  show (View.whole cc0_scratch1).write (Elt F) fd ((View.whole cc0_scratch0).read (Elt F) fs) Finset.univ = fs
  rw [View.read_whole]
  exact View.write_whole_univ _ _ _

def rcvPts (c : Dev nD) (f : Buf (Elt F) ((rM : Memref sig .tc .vmem S1x256 .f32).view.loc (c : Thread nD τ))) : sProp 𝕄 :=
  (rM : Memref sig .tc .vmem S1x256 .f32).view.loc (c : Thread nD τ) ↦[(rM : Memref sig .tc .vmem S1x256 .f32).view.set]{fullShare} f
def accPts (c : Dev nD) (f : Buf (Elt F) ((aM : Memref sig .tc .vmem S1x256 .f32).view.loc (c : Thread nD τ))) : sProp 𝕄 :=
  (aM : Memref sig .tc .vmem S1x256 .f32).view.loc (c : Thread nD τ) ↦[(aM : Memref sig .tc .vmem S1x256 .f32).view.set]{fullShare} f

omit [FloatOps F] in
instance rcvPts_storable (c : Dev nD) (f) : BI.Storable (upEmb : UEmb _ 𝕄) (rcvPts (F := F) c f) := by unfold rcvPts; infer_instance
omit [FloatOps F] in
instance accPts_storable (c : Dev nD) (f) : BI.Storable (upEmb : UEmb _ 𝕄) (accPts (F := F) c f) := by unfold accPts; infer_instance

omit [FloatOps F] in
theorem rcv_set : (rM : Memref sig .tc .vmem S1x256 .f32).view.set = Finset.univ := View.set_whole _
omit [FloatOps F] in
theorem acc_set : (aM : Memref sig .tc .vmem S1x256 .f32).view.set = Finset.univ := View.set_whole _
omit [FloatOps F] in
theorem rcvPts_eq (c : Dev nD) (f : Buf (Elt F) ((c : Thread nD τ).loc cc0_scratch1)) :
    rcvPts c f = (((c : Thread nD τ).loc cc0_scratch1) ↦{fullShare} f : sProp 𝕄) := by unfold rcvPts; rw [rcv_set]
omit [FloatOps F] in
theorem accPts_eq (c : Dev nD) (f : Buf (Elt F) ((c : Thread nD τ).loc cc0_scratch0)) :
    accPts c f = (((c : Thread nD τ).loc cc0_scratch0) ↦{fullShare} f : sProp 𝕄) := by unfold accPts; rw [acc_set]

/-! ## The schedule -/

/-- What the partner's signal hands `c`: the partner's landing row and that the partner's receive cell is at round 0. -/
def barPay (c : Dev nD) : sProp 𝕄 := iprop((∃ f, rcvPts (pr c) f) ∗ reached ER (recvCell (pr c)) 0)
def recvPay (c : Dev nD) : sProp 𝕄 := rcvPts c (landed m ρ c)
def sendPay (c : Dev nD) : sProp 𝕄 := accPts c (accV m ρ c)

abbrev IsCell (g : GSem nD τ sig) : Prop := g.1.2 = .tc ∧ (g.2 = .reg barS ∨ g.2 = .dma sendS.sem ∨ g.2 = .dma recvS.sem)

/-- One round, round 0, one duty in each of a device's three cells: the barrier's of one unit, the send's and the
    receive's of the row's credit. -/
def exRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (exRd (F := F) m ρ).duties (barCell c) 0 = {()} := by dsimp only [exRd]; exact if_pos ⟨rfl, rfl, .inl rfl⟩
theorem duties_send : (exRd (F := F) m ρ).duties (sendCell c) 0 = {()} := by dsimp only [exRd]; exact if_pos ⟨rfl, rfl, .inr (.inl rfl)⟩
theorem duties_recv : (exRd (F := F) m ρ).duties (recvCell c) 0 = {()} := by dsimp only [exRd]; exact if_pos ⟨rfl, rfl, .inr (.inr rfl)⟩
theorem duties_later (g : GSem nD τ sig) : ∀ r, 1 ≤ r → (exRd (F := F) m ρ).duties g r = ∅ :=
  fun r hr => by dsimp only [exRd]; rw [if_neg fun h => by omega]

theorem amount_bar (d : Unit) : (exRd (F := F) m ρ).amount (barCell c) 0 d = 1 := by dsimp only [exRd]; exact if_pos rfl
theorem amount_send (d : Unit) : (exRd (F := F) m ρ).amount (sendCell c) 0 d = N := by dsimp only [exRd]; exact if_neg send_ne_bar
theorem amount_recv (d : Unit) : (exRd (F := F) m ρ).amount (recvCell c) 0 d = N := by dsimp only [exRd]; exact if_neg recv_ne_bar

theorem expect_bar : (exRd (F := F) m ρ).expect (barCell c) 0 = 1 := by
  unfold Schedule.expect Schedule.amountOf; rw [duties_bar, Finset.sum_singleton, amount_bar]
theorem expect_send : (exRd (F := F) m ρ).expect (sendCell c) 0 = N := by
  unfold Schedule.expect Schedule.amountOf; rw [duties_send, Finset.sum_singleton, amount_send]
theorem expect_recv : (exRd (F := F) m ρ).expect (recvCell c) 0 = N := by
  unfold Schedule.expect Schedule.amountOf; rw [duties_recv, Finset.sum_singleton, amount_recv]

theorem payload_bar (d : Unit) : (exRd (F := F) m ρ).payload (barCell c) 0 d = barPay c := by dsimp only [exRd]; rw [if_pos rfl]
theorem payload_send (d : Unit) : (exRd (F := F) m ρ).payload (sendCell c) 0 d = sendPay m ρ c := by
  dsimp only [exRd]; rw [if_neg send_ne_bar, if_neg send_ne_recv, if_pos rfl]
theorem payload_recv (d : Unit) : (exRd (F := F) m ρ).payload (recvCell c) 0 d = recvPay m ρ c := by
  dsimp only [exRd]; rw [if_neg recv_ne_bar, if_pos rfl]

theorem rest_bar : bigSep ((exRd (F := F) m ρ).duties (barCell c) 0 \ ∅) (fun d => (exRd (F := F) m ρ).payload (barCell c) 0 d) = barPay c := by
  rw [Finset.sdiff_empty, duties_bar, bigSep_singleton, payload_bar]
theorem rest_send : bigSep ((exRd (F := F) m ρ).duties (sendCell c) 0 \ ∅) (fun d => (exRd (F := F) m ρ).payload (sendCell c) 0 d) = sendPay m ρ c := by
  rw [Finset.sdiff_empty, duties_send, bigSep_singleton, payload_send]
theorem rest_recv : bigSep ((exRd (F := F) m ρ).duties (recvCell c) 0 \ ∅) (fun d => (exRd (F := F) m ρ).payload (recvCell c) 0 d) = recvPay m ρ c := by
  rw [Finset.sdiff_empty, duties_recv, bigSep_singleton, payload_recv]

end Sched

/-! ## What each core owes at launch; the levels -/

/-- Device `c` owes its partner's receive cell the row's credit and its partner's barrier cell one unit
    (the signal, first in program order, peels the last summand). -/
def O₀ (c : Dev nD) : CellTallies nD τ sig Unit := tallyAt (recvCell (pr c)) () N + tallyAt (barCell (pr c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pr c) ∨ g = barCell (pr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (pr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its own partial means plus the partner's. -/
def outAt (c : Dev nD) : (cc0_stg1_0 : Ref sig .tc).ty.Contents (Elt F) := k0_pay1 (accV m ρ c) (accV m ρ (pr c))

/-- The cells' invariants device `c`'s body opens: its own three, the partner's barrier cell (its signal) and the
    partner's receive cell (its copy). -/
def invs (K : Dev nD × Fin 3 → ℕ) (c : Dev nD) : sProp 𝕄 :=
  iprop(cellInv ER (exRd m ρ) (K (c, 0)) (barCell c) ∗ cellInv ER (exRd m ρ) (K (c, 1)) (sendCell c) ∗ cellInv ER (exRd m ρ) (K (c, 2)) (recvCell c)
    ∗ cellInv ER (exRd m ρ) (K (pr c, 0)) (barCell (pr c)) ∗ cellInv ER (exRd m ρ) (K (pr c, 2)) (recvCell (pr c)))

instance invs_persistent (K : Dev nD × Fin 3 → ℕ) (c : Dev nD) : BI.Persistent (invs m ρ K c) := by unfold invs; infer_instance

/-- The exchange's ghost state device `c` starts from: the invariants; its positions at round 0 of its three cells; the
    reached-marks of the cells it pays and of its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (pr c)) 0 ∗ reached ER (recvCell (pr c)) 0 ∗ reached ER (sendCell c) 0 ∗ reached ER (recvCell c) 0
    ∗ dutyTok ER (barCell (pr c)) 0 () ∗ dutyTok ER (recvCell (pr c)) 0 () ∗ dutyTok ER (sendCell c) 0 ())

/-- What device `c`'s body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, accPts c f) ∗ ∃ f, rcvPts c f)
/-- After the point: both scratch rows at their contents, the two own cells at zero, closed. -/
def Φ₁ (c : Dev nD) : sProp 𝕄 := iprop(accPts c (accV m ρ c) ∗ rcvPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelProof

end
-- ==== Proof.KernelBody.lean ====
/-
One device's body of the column-mean exchange, stepped once at a symbolic device.
-/
import proofs.«900570_g7700000000000571_dist_mean_ax0_xy_m512_n256_v7x_xy2x2_bf16_1_alg».proof.Proof.KernelSched

noncomputable section

namespace Cert.KernelProof

open Cert.Kernel Cert.Kernel.Gen
open Cert.Mean (pr pr_pr pr_ne pr_val prEquiv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables as the stepping reads them: entry on the left, every payload spelt as the row it hands over -/

section Tables
variable (c : Dev nD)

omit [FloatOps F] in
/-- A whole buffer through its memref's view is the buffer. -/
theorem pts_whole_eq (b : Ref sig .tc) (f : Buf (Elt F) (((c : Dev nD) : Thread nD τ).loc b)) :
    (((Memref.whole b : Memref sig .tc b.space b.ty.shape b.ty.elt).view.loc (c : Thread nD τ)) ↦[(Memref.whole b : Memref sig .tc b.space b.ty.shape b.ty.elt).view.set]{fullShare} f : sProp 𝕄)
      = ((((c : Thread nD τ).loc b) ↦{fullShare} f) : sProp 𝕄) := by
  rw [View.set_whole]

theorem pay_bar_own : (exRd (F := F) m ρ).payload (barCell c) 0 () =
    iprop((∃ f : Buf (Elt F) ((rM : Memref sig .tc .vmem S1x256 .f32).view.loc ((pr c : Dev nD) : Thread nD τ)),
        ((rM : Memref sig .tc .vmem S1x256 .f32).view.loc ((pr c : Dev nD) : Thread nD τ)) ↦[(rM : Memref sig .tc .vmem S1x256 .f32).view.set]{fullShare} f) ∗ reached ER (recvCell (pr c)) 0) := by
  rw [payload_bar]; rfl
theorem pay_bar_pr : (exRd (F := F) m ρ).payload (barCell (pr c)) 0 () =
    iprop((∃ f : Buf (Elt F) ((rM : Memref sig .tc .vmem S1x256 .f32).view.loc ((c : Dev nD) : Thread nD τ)),
        ((rM : Memref sig .tc .vmem S1x256 .f32).view.loc ((c : Dev nD) : Thread nD τ)) ↦[(rM : Memref sig .tc .vmem S1x256 .f32).view.set]{fullShare} f) ∗ reached ER (recvCell c) 0) := by
  rw [pay_bar_own, pr_pr]
theorem pay_send : (exRd (F := F) m ρ).payload (sendCell c) 0 () =
    (((aM : Memref sig .tc .vmem S1x256 .f32).view.loc ((c : Dev nD) : Thread nD τ)) ↦[(aM : Memref sig .tc .vmem S1x256 .f32).view.set]{fullShare} accV m ρ c : sProp 𝕄) := by
  rw [payload_send]; rfl
theorem pay_recv_own : (exRd (F := F) m ρ).payload (recvCell c) 0 () =
    (((rM : Memref sig .tc .vmem S1x256 .f32).view.loc ((c : Dev nD) : Thread nD τ)) ↦[(rM : Memref sig .tc .vmem S1x256 .f32).view.set]{fullShare} accV m ρ (pr c) : sProp 𝕄) := by
  rw [payload_recv]; rfl
theorem pay_recv_pr : (exRd (F := F) m ρ).payload (recvCell (pr c)) 0 () =
    (((rM : Memref sig .tc .vmem S1x256 .f32).view.loc ((pr c : Dev nD) : Thread nD τ)) ↦[(rM : Memref sig .tc .vmem S1x256 .f32).view.set]{fullShare} accV m ρ c : sProp 𝕄) := by
  rw [pay_recv_own, pr_pr]

end Tables

section Body

variable (K : Dev nD × Fin 3 → ℕ)

attribute [local sl_rounds] duties_bar duties_send duties_recv amount_bar amount_send amount_recv
  pay_bar_own pay_send pay_recv_own expect_bar expect_send expect_recv
attribute [local sl_rounds high] pay_bar_pr pay_recv_pr
attribute [local sl_canon] dev1_eq dev2_eq

omit [FloatOps F] in
theorem hz2 : (![0, 0] : Fin 2 → Nat) = fun _ => 0 := funext fun a => by fin_cases a <;> rfl

/-- The scratch row after the store of the partial means over whatever it held. -/
theorem acc_written (c : Dev nD) (fa : (cc0_scratch0 : Ref sig .tc).ty.Contents (Elt F)) :
    (aM : Memref sig .tc .vmem S1x256 .f32).view.writes (Elt F) fa
      [⟨Rect.unit (s := S1x256) ![0, 0] S1x256.size inb_S1x256_S1x256_0_0,
        k0_pay2 (View.readAt (Elt F) (xM : Memref sig .tc .vmem S512x256 .f32).view (Rect.unit (s := S512x256) ![0, 0] S512x256.size inb_S512x256_S512x256_0_0).toLoadRect (xstg m ρ c))⟩]
      = accV m ρ c := by
  rw [View.writes_singleton, show View.readAt (Elt F) (xM : Memref sig .tc .vmem S512x256 .f32).view (Rect.unit (s := S512x256) ![0, 0] S512x256.size inb_S512x256_S512x256_0_0).toLoadRect (xstg m ρ c) = xstg m ρ c from
    Memref.readAt_unit_zero (Elt F) cc0_stg0_0 hz2 _ _]
  exact Memref.write_access_unit_zero_univ (Elt F) cc0_scratch0 hz2 _ fa _

/-- The output row after the store of own partial means plus the partner's over whatever it held. -/
theorem out_written (c : Dev nD) (g1 : (cc0_stg1_0 : Ref sig .tc).ty.Contents (Elt F)) :
    (oM : Memref sig .tc .vmem S1x256 .f32).view.writes (Elt F) g1
      [⟨Rect.unit (s := S1x256) ![0, 0] S1x256.size inb_S1x256_S1x256_0_0,
        k0_pay1 (View.readAt (Elt F) (aM : Memref sig .tc .vmem S1x256 .f32).view (Rect.unit (s := S1x256) ![0, 0] S1x256.size inb_S1x256_S1x256_0_0).toLoadRect (accV m ρ c))
          (View.readAt (Elt F) (rM : Memref sig .tc .vmem S1x256 .f32).view (Rect.unit (s := S1x256) ![0, 0] S1x256.size inb_S1x256_S1x256_0_0).toLoadRect (accV m ρ (pr c)))⟩]
      = outAt m ρ c := by
  rw [View.writes_singleton,
    show View.readAt (Elt F) (aM : Memref sig .tc .vmem S1x256 .f32).view (Rect.unit (s := S1x256) ![0, 0] S1x256.size inb_S1x256_S1x256_0_0).toLoadRect (accV m ρ c) = accV m ρ c from
      Memref.readAt_unit_zero (Elt F) cc0_scratch0 hz2 _ _,
    show View.readAt (Elt F) (rM : Memref sig .tc .vmem S1x256 .f32).view (Rect.unit (s := S1x256) ![0, 0] S1x256.size inb_S1x256_S1x256_0_0).toLoadRect (accV m ρ (pr c)) = accV m ρ (pr c) from
      Memref.readAt_unit_zero (Elt F) cc0_scratch1 hz2 _ _]
  exact Memref.write_access_unit_zero_univ (Elt F) cc0_stg1_0 hz2 _ g1 _

/-- What the body leaves: both scratch rows at their contents, the two own cells at zero, nothing owed, the input
    row as found and the output row at own partial means plus the partner's. -/
def bodyEnd (c : Dev nD) : sProp 𝕄 :=
  iprop(((aM : Memref sig .tc .vmem S1x256 .f32).view.loc ((c : Dev nD) : Thread nD τ) ↦[(aM : Memref sig .tc .vmem S1x256 .f32).view.set]{fullShare} accV m ρ c) ∗ ((rM : Memref sig .tc .vmem S1x256 .f32).view.loc ((c : Dev nD) : Thread nD τ) ↦[(rM : Memref sig .tc .vmem S1x256 .f32).view.set]{fullShare} accV m ρ (pr c)) ∗ semVal (sendCell c) 0 ∗ semVal (recvCell c) 0
    ∗ (∃ W', owes (c : Thread nD τ) 0 W') ∗ ((xM : Memref sig .tc .vmem S512x256 .f32).view.loc ((c : Dev nD) : Thread nD τ) ↦[(xM : Memref sig .tc .vmem S512x256 .f32).view.set]{fullShare} xstg m ρ c) ∗ ((oM : Memref sig .tc .vmem S1x256 .f32).view.loc ((c : Dev nD) : Thread nD τ) ↦[(oM : Memref sig .tc .vmem S1x256 .f32).view.set]{fullShare} outAt m ρ c))

set_option maxHeartbeats 800000 in
theorem sound_body (c : Dev nD) (W : Waits sig Unit) (fa : (cc0_scratch0 : Ref sig .tc).ty.Contents (Elt F)) (fr : (cc0_scratch1 : Ref sig .tc).ty.Contents (Elt F))
    (g1 : (cc0_stg1_0 : Ref sig .tc).ty.Contents (Elt F)) (Kt : PUnit → sProp 𝕄) :
    iprop((cellInv ER (exRd m ρ) (K (c, 0)) (barCell c) ∗ cellInv ER (exRd m ρ) (K (c, 1)) (sendCell c) ∗ cellInv ER (exRd m ρ) (K (c, 2)) (recvCell c)
          ∗ cellInv ER (exRd m ρ) (K (pr c, 0)) (barCell (pr c)) ∗ cellInv ER (exRd m ρ) (K (pr c, 2)) (recvCell (pr c)))
        ∗ atPos ER (barCell c) 0 ∅ 0 ∗ atPos ER (sendCell c) 0 ∅ 0 ∗ atPos ER (recvCell c) 0 ∅ 0
        ∗ reached ER (barCell (pr c)) 0 ∗ reached ER (recvCell (pr c)) 0 ∗ reached ER (sendCell c) 0 ∗ reached ER (recvCell c) 0
        ∗ dutyTok ER (barCell (pr c)) 0 () ∗ dutyTok ER (recvCell (pr c)) 0 () ∗ dutyTok ER (sendCell c) 0 ()
        ∗ cred (tallyAt (barCell c) () 1) ∗ cred (tallyAt (recvCell c) () N) ∗ levAts L lv
        ∗ ((xM : Memref sig .tc .vmem S512x256 .f32).view.loc ((c : Dev nD) : Thread nD τ) ↦[(xM : Memref sig .tc .vmem S512x256 .f32).view.set]{fullShare} xstg m ρ c) ∗ ((oM : Memref sig .tc .vmem S1x256 .f32).view.loc ((c : Dev nD) : Thread nD τ) ↦[(oM : Memref sig .tc .vmem S1x256 .f32).view.set]{fullShare} g1)
        ∗ ((aM : Memref sig .tc .vmem S1x256 .f32).view.loc ((c : Dev nD) : Thread nD τ) ↦[(aM : Memref sig .tc .vmem S1x256 .f32).view.set]{fullShare} fa) ∗ ((rM : Memref sig .tc .vmem S1x256 .f32).view.loc ((c : Dev nD) : Thread nD τ) ↦[(rM : Memref sig .tc .vmem S1x256 .f32).view.set]{fullShare} fr)
        ∗ owes (c : Thread nD τ) (tallyAt (recvCell (pr c)) () N + tallyAt (barCell (pr c)) () 1) W
        ∗ (bodyEnd m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨⟨#HIbar, #HIsnd, #HIrcv, #HIbarP, #HIrcvP⟩, HatB, HatS, HatV, #HrBP, #HrVP, #HrS, #HrV, HtBP, HtVP, HtS, HcB, HcV, #Hlev, Hx, Hout, Hacc, Hrcv, HO, Hk⟩
  have hmw := mayWait_bar (F := F) c
  sl_unfold [cc0_body]
  sl_exec
  rw [acc_written m ρ c fa]
  sl_exec (disch := simp only [dev2_eq])
  rw [out_written m ρ c g1]
  -- the two own cells close: their counters at zero are the core's again
  imod (Rounds.cell_close ER (exRd m ρ) (Set.mem_univ (K (c, 1))) (fun h => h) (R := 1) (duties_later m ρ (sendCell c))) $$ [HatS] with HzS
  · isplitr; · iexact HIsnd
    iexact HatS
  imod (Rounds.cell_close ER (exRd m ρ) (Set.mem_univ (K (c, 2))) (fun h => h) (R := 1) (duties_later m ρ (recvCell c))) $$ [HatV] with HzV
  · isplitr; · iexact HIrcv
    iexact HatV
  rw [wp_ret]; imodintro
  iapply Hk
  unfold bodyEnd
  isplitl [HatS_pay1]; · iexact HatS_pay1
  isplitl [HatV_pay1]; · iexact HatV_pay1
  isplitl [HzS]; · iexact HzS
  isplitl [HzV]; · iexact HzV
  isplitl [HO]; · iexists _; iexact HO
  isplitl [Hx]; · iexact Hx
  iexact Hout

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the point hands the body: the invariant before it, what the device owes, the two staged rows. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 4000 in
/-- The library's body obligation on core `c`: the stepped body between the point's pre and post. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start ghost invs
  iintro ⟨⟨⟨⟨%K, ⟨HI, HatB, HatS, HatV, HrBP, HrVP, HrS, HrV, HtBP, HtVP, HtS⟩⟩, HcB, HcV, Hlev⟩, ⟨%fa, Hacc⟩, ⟨%fr, Hrcv⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hx := (Entails.of_eq (pts_whole_eq (F := F) c cc0_stg0_0 _).symm) $$ Hx
  ihave Hout := (Entails.of_eq (pts_whole_eq (F := F) c cc0_stg1_0 _).symm) $$ Hout
  iapply (sound_body m ρ K c W fa fr g1 (fun _ => bodyPost m ρ c))
  isplitl [HI]; · iexact HI
  isplitl [HatB]; · iexact HatB
  isplitl [HatS]; · iexact HatS
  isplitl [HatV]; · iexact HatV
  isplitl [HrBP]; · iexact HrBP
  isplitl [HrVP]; · iexact HrVP
  isplitl [HrS]; · iexact HrS
  isplitl [HrV]; · iexact HrV
  isplitl [HtBP]; · iexact HtBP
  isplitl [HtVP]; · iexact HtVP
  isplitl [HtS]; · iexact HtS
  isplitl [HcB]; · iexact HcB
  isplitl [HcV]; · iexact HcV
  isplitl [Hlev]; · iexact Hlev
  isplitl [Hx]; · iexact Hx
  isplitl [Hout]; · iexact Hout
  isplitl [Hacc]; · unfold accPts; iexact Hacc
  isplitl [Hrcv]; · unfold rcvPts; iexact Hrcv
  isplitl [HO]; · iexact HO
  unfold bodyEnd bodyPost Φ₁ Dat.owesAt Pipeline.owesWithin
  rw [show (dats m ρ 0 c).owed t₀.succ = 0 from rfl]
  iintro ⟨Ha, Hr, HzS, HzV, ⟨%W', HO⟩, Hx, Hout⟩
  isplitl [Ha Hr HzS HzV]
  · isplitl [Ha]; · unfold accPts; iexact Ha
    isplitl [Hr]; · unfold rcvPts landed; iexact Hr
    isplitl [HzS]; · iexact HzS
    iexact HzV
  isplitl [HO]
  · iexists W'
    isplitr; · ipureintro; exact fun _ _ => Or.inl trivial
    iexact HO
  ihave Hx := (Entails.of_eq (pts_whole_eq (F := F) c cc0_stg0_0 _)) $$ Hx
  ihave Hout := (Entails.of_eq (pts_whole_eq (F := F) c cc0_stg1_0 _)) $$ Hout
  isplitl [Hx]
  · iexists _; isplitr; · (ipureintro; rfl)
    iexact Hx
  iexists _; isplitr; · (ipureintro; rfl)
  iexact Hout

/-- info: 'Cert.KernelProof.body_obligation' depends on axioms: [propext, Classical.choice, Quot.sound] -/
#guard_msgs in #print axioms body_obligation

end Body

end Cert.KernelProof

end
-- ==== Proof.KernelLaunch.lean ====
/-
The launch of the column-mean exchange on the four devices: the exchange's ghost state minted and dealt (each device
keeps its positions and takes the tokens of the duties IT pays: its partner's barrier and receive duties, its own send
duty), the launch credit counted, and the run of the whole program with every array's final contents named.
-/
import proofs.«900570_g7700000000000571_dist_mean_ax0_xy_m512_n256_v7x_xy2x2_bf16_1_alg».proof.Proof.KernelBody

noncomputable section

namespace Cert.KernelProof

open Cert.Kernel Cert.Kernel.Gen
open Cert.Mean (pr pr_pr pr_ne pr_val prEquiv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (exRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (exRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (exRd m ρ) (K ck) (kcell ck) : sProp 𝕄)) ⊢ cellInv ER (exRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pr c)) 0 () ∗ dutyTok ER (recvCell (pr c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (pr c, 0)); iexact HI
    iapply (inv_at m ρ K (pr c, 2)); iexact HI
  isplitl [HaB]; · iexact HaB
  isplitl [HaS]; · iexact HaS
  isplitl [HaV]; · iexact HaV
  isplitr; · iapply (reached_at (F := F) (pr c, 0)); iexact HR
  isplitr; · iapply (reached_at (F := F) (pr c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a barrier's token and a receive cell's token go to the partner, who pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv prEquiv (fun c : Dev nD => (dutyTok ER (barCell c) 0 () : sProp 𝕄)),
    bigSep_univ_equiv prEquiv (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (exRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = pr c then 1 else 0 := by
  unfold O₀
  rw [Pi.add_apply, Finsupp.add_apply, tallyAt_ne_cell (fun h => recv_ne_bar (congrArg Prod.snd h).symm), tallyAt_apply, Finsupp.zero_apply, Nat.zero_add]
  by_cases h : d = pr c
  · subst h; rw [pr_pr, if_pos ⟨rfl, rfl⟩, if_pos rfl]
  · rw [if_neg (fun ⟨h1, _⟩ => h (by rw [bar_eq_iff.mp h1, pr_pr])), if_neg h]

omit [FloatOps F] in
theorem owed_recv (d c : Dev nD) : O₀ d (recvCell c) () = if d = pr c then N else 0 := by
  unfold O₀
  rw [Pi.add_apply, Finsupp.add_apply, tallyAt_apply, tallyAt_ne_cell (fun h => recv_ne_bar (congrArg Prod.snd h)), Finsupp.zero_apply, Nat.add_zero]
  by_cases h : d = pr c
  · subst h; rw [pr_pr, if_pos ⟨rfl, rfl⟩, if_pos rfl]
  · rw [if_neg (fun ⟨h1, _⟩ => h (by rw [recv_eq_iff.mp h1, pr_pr])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pr c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pr c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%fa, Ha⟩, ⟨%fr, Hr⟩⟩
  isplitl [Hs]; · iexact Hs
  isplitl [Ha]
  · iexists fa; rw [accPts_eq]; iexact Ha
  iexists fr; rw [rcvPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Ha, Hr, HzS, HzV⟩
  isplitr; · iempintro
  isplitl [HzS HzV]
  · isplitl [HzS] <;> iassumption
  isplitl [Ha]
  · iexists (accV m ρ c); rw [← accPts_eq]; iexact Ha
  iexists (landed m ρ c); rw [← rcvPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program — the four kernels signalling their partners, exchanging their partial column means and
    adding them — terminates, and every final state has each window's array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelProof.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelProof

end
-- ==== Proof.KernelResult.lean ====
/-
What the run leaves in the arrays, as functions of the inputs: the input block unchanged; the result row of device c
its own partial column means plus its partner's, each the sum of that device's 512 rows times 2⁻¹⁰.
-/
import proofs.«900570_g7700000000000571_dist_mean_ax0_xy_m512_n256_v7x_xy2x2_bf16_1_alg».proof.Proof.KernelLaunch
import proofs.«900570_g7700000000000571_dist_mean_ax0_xy_m512_n256_v7x_xy2x2_bf16_1_alg».proof.Proof.Gen.Kernel.Points
import Idealize.ShloMosaic.Lib.Pipeline.Value

noncomputable section

namespace Cert.KernelProof

open Cert.Kernel Cert.Kernel.Gen
open Cert.Mean (pr pr_pr pr_ne pr_val prEquiv)
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

omit [FloatOps F] in
/-- The one block of the input window is the whole input array. -/
theorem xstg_eq (c : Dev nD) : xstg m ρ c = m ((c : Thread nD τ).loc main_arg0) := by
  unfold xstg
  exact Memref.read_access_unit_zero (Elt F) main_arg0 (off := fun a => win0_0.index (0 : Fin 1) a * win0_0.size a) (funext fun a => by fin_cases a <;> rfl) _ _

/-- The one write-back of the output window overwrites the whole result array with what the body left. -/
theorem finalA_out (c : Dev nD) : finalA m ρ c (1 : Fin 2) = outAt m ρ c := by
  show (dats m ρ 0 c).arrAt 1 (t₀.val + 1) = _
  rw [Dat.arrAt_succ, if_pos (flush0_1 t₀)]
  show View.write (Elt F) ((cfg0.win 1).blk t₀).view _ (outAt m ρ c) Finset.univ = outAt m ρ c
  exact Memref.write_access_unit_zero_univ (Elt F) main_v1 (off := fun a => win0_1.index (0 : Fin 1) a * win0_1.size a) (funext fun a => by fin_cases a <;> rfl) _ _ _

/-- The result row in terms of the two devices' input blocks. -/
theorem outAt_eq (c : Dev nD) :
    outAt m ρ c = k0_pay1 (k0_pay2 (m ((c : Thread nD τ).loc main_arg0))) (k0_pay2 (m (((pr c : Dev nD) : Thread nD τ).loc main_arg0))) := by
  unfold outAt accV; rw [xstg_eq, xstg_eq]

/-- The run with every array named: each device's result row is its partial means plus its partner's, its input unchanged. -/
theorem run_values : θ_run defs (onTc (τ := τ) (main (F := F))) ⟨m, fun _ => 0, ρ⟩ (fun r => ∀ c : Dev nD,
    r.2.mem ((c : Thread nD τ).loc main_v1) = k0_pay1 (k0_pay2 (m ((c : Thread nD τ).loc main_arg0))) (k0_pay2 (m (((pr c : Dev nD) : Thread nD τ).loc main_arg0)))
    ∧ r.2.mem ((c : Thread nD τ).loc main_arg0) = m ((c : Thread nD τ).loc main_arg0)) :=
  (θ_run defs _ _).mono (fun _ h c => ⟨((h c (1 : Fin 2)).trans (finalA_out m ρ c)).trans (outAt_eq m ρ c), (h c (0 : Fin 2)).trans (finalA_x m ρ c)⟩)
    (run_main m ρ)

/-- info: 'Cert.KernelProof.run_values' depends on axioms: [propext, Classical.choice, Quot.sound] -/
#guard_msgs in #print axioms run_values

end Cert.KernelProof

end
-- ==== Proof.KernelIdealSched.lean ====
/-
The exchange protocol of the column-mean kernel on the 2 × 2 mesh, device by device.

Each device c signals its partner's barrier semaphore (one unit), forms its partial column means
(the sum of its 512 rows times 2⁻¹⁰) in a scratch row, waits for one unit on its own barrier semaphore,
copies the scratch row into the partner's landing row (crediting its own send semaphore and the partner's
receive semaphore), waits on both, and stores scratch row + landing row.

The barrier unit a device receives tells it that the partner is inside the kernel: with it comes the
partner's landing row (at whatever contents) and the fact that the partner's receive cell is at round 0.
The receive credit hands the owner its landing row holding the PARTNER's partial means; the send credit hands
back the scratch row holding the device's own partial means. A wait is allowed only at a level below what the
waiter still owes: barrier cells sit at level 1, receive cells at level 2, everything else at 0.
-/
import proofs.«900570_g7700000000000571_dist_mean_ax0_xy_m512_n256_v7x_xy2x2_bf16_1_alg».proof.Proof.Gen.KernelIdeal
import proofs.«900570_g7700000000000571_dist_mean_ax0_xy_m512_n256_v7x_xy2x2_bf16_1_alg».proof.Proof.Gen.KernelIdeal.Skeleton
import proofs.«900570_g7700000000000571_dist_mean_ax0_xy_m512_n256_v7x_xy2x2_bf16_1_alg».proof.Proof.Gen.KernelIdeal.Launch
import proofs.«900570_g7700000000000571_dist_mean_ax0_xy_m512_n256_v7x_xy2x2_bf16_1_alg».proof.Proof.Partner
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen
open Cert.Mean (pr pr_pr pr_ne pr_val prEquiv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the exchange's (one duty a round, named by `Unit`) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The partner, as the kernel computes it -/

/-- Both device chains of the kernel (the signal's and the copy's) name the partner. -/
theorem dev1_eq (c : Dev nD) : (⟨k0_dev1 c, k0_dev1_lt c⟩ : Dev nD) = pr c := Fin.ext ((k0_dev1_eq c).trans (pr_val c).symm)
theorem dev2_eq (c : Dev nD) : (⟨k0_dev2 c, k0_dev2_lt c⟩ : Dev nD) = pr c := Fin.ext ((k0_dev2_eq c).trans (pr_val c).symm)

/-! ## The memrefs and cells -/

abbrev xM : Memref sig .tc .vmem S512x256 .f32 := Memref.whole cc0_stg0_0
abbrev oM : Memref sig .tc .vmem S1x256 .f32 := Memref.whole cc0_stg1_0
/-- the scratch row of partial means (the copy's source) and the landing row (its destination on the partner) -/
abbrev aM : Memref sig .tc .vmem S1x256 .f32 := Memref.whole cc0_scratch0
abbrev rM : Memref sig .tc .vmem S1x256 .f32 := Memref.whole cc0_scratch1

abbrev barS : Sem sig := (SemArray.scalar (sig.barrier 0 rfl) : Sems sig S_).sem
abbrev sendS : DmaSems sig S_ := cc0_scratch2
abbrev recvS : DmaSems sig S_ := cc0_scratch3

abbrev barCell (c : Dev nD) : GSem nD τ sig := ((c : Thread nD τ), .reg barS)
abbrev sendCell (c : Dev nD) : GSem nD τ sig := ((c : Thread nD τ), .dma sendS.sem)
abbrev recvCell (c : Dev nD) : GSem nD τ sig := ((c : Thread nD τ), .dma recvS.sem)

/-- The kernel's own (scoped) semaphores: send, receive; -/
abbrev osem : Fin 2 → SemLoc sig := fun | 0 => .dma sendS.sem | 1 => .dma recvS.sem
/-- all three of the exchange's: barrier, send, receive. -/
abbrev csem : Fin 3 → SemLoc sig := fun | 0 => .reg barS | 1 => .dma sendS.sem | 2 => .dma recvS.sem
abbrev kcell (ck : Dev nD × Fin 3) : GSem nD τ sig := ((ck.1 : Thread nD τ), csem ck.2)

abbrev N : ℕ := (rM : Memref sig .tc .vmem S1x256 .f32).view.dmaCredit
theorem N_pos : 0 < N := View.dmaCredit_pos _ (by decide)

/-! ## Contents -/

/-- Device `c`'s block of the input as staged. -/
def xstg (c : Dev nD) : (cc0_stg0_0 : Ref sig .tc).ty.Contents (Elt F) :=
  (win0_0.blk (0 : Fin 1)).view.read (Elt F) ((s₀ m ρ).mem ((c : Thread nD τ).loc main_arg0))

/-- Device `c`'s partial column means: the sum of its block's rows, times 2⁻¹⁰. -/
def accV (c : Dev nD) : (cc0_scratch0 : Ref sig .tc).ty.Contents (Elt F) := k0_pay2 (xstg m ρ c)

/-- What lands on device `c`: the partner's partial means. -/
def landed (c : Dev nD) : Buf (Elt F) ((rM : Memref sig .tc .vmem S1x256 .f32).view.loc (c : Thread nD τ)) := accV m ρ (pr c)

omit [FloatOps F] in
theorem landed_eq (c : Dev nD) (fd : Buf (Elt F) ((rM : Memref sig .tc .vmem S1x256 .f32).view.loc (c : Thread nD τ))) (fs : (cc0_scratch0 : Ref sig .tc).ty.Contents (Elt F)) :
    (rM : Memref sig .tc .vmem S1x256 .f32).view.write (Elt F) fd ((aM : Memref sig .tc .vmem S1x256 .f32).view.read (Elt F) fs) Finset.univ = fs := by
  show (View.whole cc0_scratch1).write (Elt F) fd ((View.whole cc0_scratch0).read (Elt F) fs) Finset.univ = fs
  rw [View.read_whole]
  exact View.write_whole_univ _ _ _

def rcvPts (c : Dev nD) (f : Buf (Elt F) ((rM : Memref sig .tc .vmem S1x256 .f32).view.loc (c : Thread nD τ))) : sProp 𝕄 :=
  (rM : Memref sig .tc .vmem S1x256 .f32).view.loc (c : Thread nD τ) ↦[(rM : Memref sig .tc .vmem S1x256 .f32).view.set]{fullShare} f
def accPts (c : Dev nD) (f : Buf (Elt F) ((aM : Memref sig .tc .vmem S1x256 .f32).view.loc (c : Thread nD τ))) : sProp 𝕄 :=
  (aM : Memref sig .tc .vmem S1x256 .f32).view.loc (c : Thread nD τ) ↦[(aM : Memref sig .tc .vmem S1x256 .f32).view.set]{fullShare} f

omit [FloatOps F] in
instance rcvPts_storable (c : Dev nD) (f) : BI.Storable (upEmb : UEmb _ 𝕄) (rcvPts (F := F) c f) := by unfold rcvPts; infer_instance
omit [FloatOps F] in
instance accPts_storable (c : Dev nD) (f) : BI.Storable (upEmb : UEmb _ 𝕄) (accPts (F := F) c f) := by unfold accPts; infer_instance

omit [FloatOps F] in
theorem rcv_set : (rM : Memref sig .tc .vmem S1x256 .f32).view.set = Finset.univ := View.set_whole _
omit [FloatOps F] in
theorem acc_set : (aM : Memref sig .tc .vmem S1x256 .f32).view.set = Finset.univ := View.set_whole _
omit [FloatOps F] in
theorem rcvPts_eq (c : Dev nD) (f : Buf (Elt F) ((c : Thread nD τ).loc cc0_scratch1)) :
    rcvPts c f = (((c : Thread nD τ).loc cc0_scratch1) ↦{fullShare} f : sProp 𝕄) := by unfold rcvPts; rw [rcv_set]
omit [FloatOps F] in
theorem accPts_eq (c : Dev nD) (f : Buf (Elt F) ((c : Thread nD τ).loc cc0_scratch0)) :
    accPts c f = (((c : Thread nD τ).loc cc0_scratch0) ↦{fullShare} f : sProp 𝕄) := by unfold accPts; rw [acc_set]

/-! ## The schedule -/

/-- What the partner's signal hands `c`: the partner's landing row and that the partner's receive cell is at round 0. -/
def barPay (c : Dev nD) : sProp 𝕄 := iprop((∃ f, rcvPts (pr c) f) ∗ reached ER (recvCell (pr c)) 0)
def recvPay (c : Dev nD) : sProp 𝕄 := rcvPts c (landed m ρ c)
def sendPay (c : Dev nD) : sProp 𝕄 := accPts c (accV m ρ c)

abbrev IsCell (g : GSem nD τ sig) : Prop := g.1.2 = .tc ∧ (g.2 = .reg barS ∨ g.2 = .dma sendS.sem ∨ g.2 = .dma recvS.sem)

/-- One round, round 0, one duty in each of a device's three cells: the barrier's of one unit, the send's and the
    receive's of the row's credit. -/
def exRd : Rounds.Schedule (GSem nD τ sig) Unit 𝕄 where
  duties g r := if r = 0 ∧ IsCell g then {()} else ∅
  unitless _ := False
  amount g _ _ := if g.2 = .reg barS then 1 else N
  payload g _ _ :=
    if g.2 = .reg barS then barPay g.1.1
    else if g.2 = .dma recvS.sem then recvPay m ρ g.1.1
    else if g.2 = .dma sendS.sem then sendPay m ρ g.1.1
    else iprop(emp)
  amount_pos g _ _ _ := by
    by_cases h : g.2 = .reg barS
    · rw [if_pos h]; exact Nat.one_pos
    · rw [if_neg h]; exact N_pos

instance exRd_payload_storable (g : GSem nD τ sig) (r : ℕ) (d : Unit) :
    BI.Storable (upEmb : UEmb _ 𝕄) ((exRd (F := F) m ρ).payload g r d) := by
  show BI.Storable upEmb (if g.2 = .reg barS then barPay g.1.1 else if g.2 = .dma recvS.sem then recvPay m ρ g.1.1
    else if g.2 = .dma sendS.sem then sendPay m ρ g.1.1 else iprop(emp))
  unfold barPay recvPay sendPay
  (repeat' split) <;> infer_instance

section Sched
variable (c : Dev nD)

theorem send_ne_bar : (SemLoc.dma sendS.sem : SemLoc sig) ≠ .reg barS := fun h => by cases h
theorem recv_ne_bar : (SemLoc.dma recvS.sem : SemLoc sig) ≠ .reg barS := fun h => by cases h
theorem send_ne_recv : (SemLoc.dma sendS.sem : SemLoc sig) ≠ .dma recvS.sem := by decide
theorem recv_ne_send : (SemLoc.dma recvS.sem : SemLoc sig) ≠ .dma sendS.sem := by decide

theorem duties_bar : (exRd (F := F) m ρ).duties (barCell c) 0 = {()} := by dsimp only [exRd]; exact if_pos ⟨rfl, rfl, .inl rfl⟩
theorem duties_send : (exRd (F := F) m ρ).duties (sendCell c) 0 = {()} := by dsimp only [exRd]; exact if_pos ⟨rfl, rfl, .inr (.inl rfl)⟩
theorem duties_recv : (exRd (F := F) m ρ).duties (recvCell c) 0 = {()} := by dsimp only [exRd]; exact if_pos ⟨rfl, rfl, .inr (.inr rfl)⟩
theorem duties_later (g : GSem nD τ sig) : ∀ r, 1 ≤ r → (exRd (F := F) m ρ).duties g r = ∅ :=
  fun r hr => by dsimp only [exRd]; rw [if_neg fun h => by omega]

theorem amount_bar (d : Unit) : (exRd (F := F) m ρ).amount (barCell c) 0 d = 1 := by dsimp only [exRd]; exact if_pos rfl
theorem amount_send (d : Unit) : (exRd (F := F) m ρ).amount (sendCell c) 0 d = N := by dsimp only [exRd]; exact if_neg send_ne_bar
theorem amount_recv (d : Unit) : (exRd (F := F) m ρ).amount (recvCell c) 0 d = N := by dsimp only [exRd]; exact if_neg recv_ne_bar

theorem expect_bar : (exRd (F := F) m ρ).expect (barCell c) 0 = 1 := by
  unfold Schedule.expect Schedule.amountOf; rw [duties_bar, Finset.sum_singleton, amount_bar]
theorem expect_send : (exRd (F := F) m ρ).expect (sendCell c) 0 = N := by
  unfold Schedule.expect Schedule.amountOf; rw [duties_send, Finset.sum_singleton, amount_send]
theorem expect_recv : (exRd (F := F) m ρ).expect (recvCell c) 0 = N := by
  unfold Schedule.expect Schedule.amountOf; rw [duties_recv, Finset.sum_singleton, amount_recv]

theorem payload_bar (d : Unit) : (exRd (F := F) m ρ).payload (barCell c) 0 d = barPay c := by dsimp only [exRd]; rw [if_pos rfl]
theorem payload_send (d : Unit) : (exRd (F := F) m ρ).payload (sendCell c) 0 d = sendPay m ρ c := by
  dsimp only [exRd]; rw [if_neg send_ne_bar, if_neg send_ne_recv, if_pos rfl]
theorem payload_recv (d : Unit) : (exRd (F := F) m ρ).payload (recvCell c) 0 d = recvPay m ρ c := by
  dsimp only [exRd]; rw [if_neg recv_ne_bar, if_pos rfl]

theorem rest_bar : bigSep ((exRd (F := F) m ρ).duties (barCell c) 0 \ ∅) (fun d => (exRd (F := F) m ρ).payload (barCell c) 0 d) = barPay c := by
  rw [Finset.sdiff_empty, duties_bar, bigSep_singleton, payload_bar]
theorem rest_send : bigSep ((exRd (F := F) m ρ).duties (sendCell c) 0 \ ∅) (fun d => (exRd (F := F) m ρ).payload (sendCell c) 0 d) = sendPay m ρ c := by
  rw [Finset.sdiff_empty, duties_send, bigSep_singleton, payload_send]
theorem rest_recv : bigSep ((exRd (F := F) m ρ).duties (recvCell c) 0 \ ∅) (fun d => (exRd (F := F) m ρ).payload (recvCell c) 0 d) = recvPay m ρ c := by
  rw [Finset.sdiff_empty, duties_recv, bigSep_singleton, payload_recv]

end Sched

/-! ## What each core owes at launch; the levels -/

/-- Device `c` owes its partner's receive cell the row's credit and its partner's barrier cell one unit
    (the signal, first in program order, peels the last summand). -/
def O₀ (c : Dev nD) : CellTallies nD τ sig Unit := tallyAt (recvCell (pr c)) () N + tallyAt (barCell (pr c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma recvS.sem then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₀_pos {c : Dev nD} {g : GSem nD τ sig} {u : Unit} (h : 0 < O₀ c g u) :
    g = recvCell (pr c) ∨ g = barCell (pr c) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
theorem mayWait_stage (c : Dev nD) (q : DmaSem sig) (hq : SemLoc.dma q ≠ .dma recvS.sem) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl <;> exact Finset.mem_singleton_self _)
      (fun p hp => by rw [Finset.mem_singleton.mp hp]; dsimp only [lv]; rw [if_neg (fun h => by cases h), if_neg hq])
      (fun g u hg => by
        rcases O₀_pos hg with rfl | rfl
        · dsimp only [lv]; rw [if_neg recv_ne_bar, if_pos rfl]; decide
        · dsimp only [lv]; rw [if_pos rfl]; decide)
  · rw [MayWait_zero]; iintro -; iempintro

omit [FloatOps F] in
/-- At its barrier wait a device owes its partner's receive credit only: a receive cell, above its barrier cell. -/
theorem mayWait_bar (c : Dev nD) :
    (levAts L lv : sProp 𝕄) ⊢ MayWait (c : Thread nD τ) (.reg barS) () (tallyAt (recvCell (pr c)) () N) :=
  MayOwe.of_cut (L := L) (lev := lv) 1 (fun p hp => by rw [Finset.mem_singleton.mp hp, L_tc]; exact Finset.mem_singleton_self _)
    (fun g u hg => by
      rw [tallyAt_apply] at hg
      by_cases h : g = recvCell (pr c) ∧ u = ()
      · rw [h.1, L_tc]; exact Finset.mem_singleton_self _
      · rw [if_neg h] at hg; exact absurd hg (Nat.lt_irrefl 0))
    (fun p hp => by rw [Finset.mem_singleton.mp hp]; dsimp only [lv]; rw [if_pos rfl])
    (fun g u hg => by
      rw [tallyAt_apply] at hg
      by_cases h : g = recvCell (pr c) ∧ u = ()
      · rw [h.1]; dsimp only [lv]; rw [if_neg recv_ne_bar, if_pos rfl]; decide
      · rw [if_neg h] at hg; exact absurd hg (Nat.lt_irrefl 0))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its own partial means plus the partner's. -/
def outAt (c : Dev nD) : (cc0_stg1_0 : Ref sig .tc).ty.Contents (Elt F) := k0_pay1 (accV m ρ c) (accV m ρ (pr c))

/-- The cells' invariants device `c`'s body opens: its own three, the partner's barrier cell (its signal) and the
    partner's receive cell (its copy). -/
def invs (K : Dev nD × Fin 3 → ℕ) (c : Dev nD) : sProp 𝕄 :=
  iprop(cellInv ER (exRd m ρ) (K (c, 0)) (barCell c) ∗ cellInv ER (exRd m ρ) (K (c, 1)) (sendCell c) ∗ cellInv ER (exRd m ρ) (K (c, 2)) (recvCell c)
    ∗ cellInv ER (exRd m ρ) (K (pr c, 0)) (barCell (pr c)) ∗ cellInv ER (exRd m ρ) (K (pr c, 2)) (recvCell (pr c)))

instance invs_persistent (K : Dev nD × Fin 3 → ℕ) (c : Dev nD) : BI.Persistent (invs m ρ K c) := by unfold invs; infer_instance

/-- The exchange's ghost state device `c` starts from: the invariants; its positions at round 0 of its three cells; the
    reached-marks of the cells it pays and of its own send and receive cells; the three duty tokens it pays with. -/
def ghost (K : Dev nD × Fin 3 → ℕ) (c : Dev nD) : sProp 𝕄 :=
  iprop(invs m ρ K c
    ∗ atPos ER (barCell c) 0 ∅ 0 ∗ atPos ER (sendCell c) 0 ∅ 0 ∗ atPos ER (recvCell c) 0 ∅ 0
    ∗ reached ER (barCell (pr c)) 0 ∗ reached ER (recvCell (pr c)) 0 ∗ reached ER (sendCell c) 0 ∗ reached ER (recvCell c) 0
    ∗ dutyTok ER (barCell (pr c)) 0 () ∗ dutyTok ER (recvCell (pr c)) 0 () ∗ dutyTok ER (sendCell c) 0 ())

/-- What device `c`'s body starts from: that at some names, its two credit tokens and the level facts. -/
def start (c : Dev nD) : sProp 𝕄 :=
  iprop((∃ K, ghost m ρ K c) ∗ cred (tallyAt (barCell c) () 1) ∗ cred (tallyAt (recvCell c) () N) ∗ levAts L lv)

def Φ₀ (c : Dev nD) : sProp 𝕄 := iprop(start m ρ c ∗ (∃ f, accPts c f) ∗ ∃ f, rcvPts c f)
/-- After the point: both scratch rows at their contents, the two own cells at zero, closed. -/
def Φ₁ (c : Dev nD) : sProp 𝕄 := iprop(accPts c (accV m ρ c) ∗ rcvPts c (landed m ρ c) ∗ semVal (sendCell c) 0 ∗ semVal (recvCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

end Cert.KernelIdealProof

end
-- ==== Proof.KernelIdealBody.lean ====
/-
One device's body of the column-mean exchange, stepped once at a symbolic device.
-/
import proofs.«900570_g7700000000000571_dist_mean_ax0_xy_m512_n256_v7x_xy2x2_bf16_1_alg».proof.Proof.KernelIdealSched

noncomputable section

namespace Cert.KernelIdealProof

open Cert.KernelIdeal Cert.KernelIdeal.Gen
open Cert.Mean (pr pr_pr pr_ne pr_val prEquiv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## The schedule's tables as the stepping reads them: entry on the left, every payload spelt as the row it hands over -/

section Tables
variable (c : Dev nD)

omit [FloatOps F] in
/-- A whole buffer through its memref's view is the buffer. -/
theorem pts_whole_eq (b : Ref sig .tc) (f : Buf (Elt F) (((c : Dev nD) : Thread nD τ).loc b)) :
    (((Memref.whole b : Memref sig .tc b.space b.ty.shape b.ty.elt).view.loc (c : Thread nD τ)) ↦[(Memref.whole b : Memref sig .tc b.space b.ty.shape b.ty.elt).view.set]{fullShare} f : sProp 𝕄)
      = ((((c : Thread nD τ).loc b) ↦{fullShare} f) : sProp 𝕄) := by
  rw [View.set_whole]

theorem pay_bar_own : (exRd (F := F) m ρ).payload (barCell c) 0 () =
    iprop((∃ f : Buf (Elt F) ((rM : Memref sig .tc .vmem S1x256 .f32).view.loc ((pr c : Dev nD) : Thread nD τ)),
        ((rM : Memref sig .tc .vmem S1x256 .f32).view.loc ((pr c : Dev nD) : Thread nD τ)) ↦[(rM : Memref sig .tc .vmem S1x256 .f32).view.set]{fullShare} f) ∗ reached ER (recvCell (pr c)) 0) := by
  rw [payload_bar]; rfl
theorem pay_bar_pr : (exRd (F := F) m ρ).payload (barCell (pr c)) 0 () =
    iprop((∃ f : Buf (Elt F) ((rM : Memref sig .tc .vmem S1x256 .f32).view.loc ((c : Dev nD) : Thread nD τ)),
        ((rM : Memref sig .tc .vmem S1x256 .f32).view.loc ((c : Dev nD) : Thread nD τ)) ↦[(rM : Memref sig .tc .vmem S1x256 .f32).view.set]{fullShare} f) ∗ reached ER (recvCell c) 0) := by
  rw [pay_bar_own, pr_pr]
theorem pay_send : (exRd (F := F) m ρ).payload (sendCell c) 0 () =
    (((aM : Memref sig .tc .vmem S1x256 .f32).view.loc ((c : Dev nD) : Thread nD τ)) ↦[(aM : Memref sig .tc .vmem S1x256 .f32).view.set]{fullShare} accV m ρ c : sProp 𝕄) := by
  rw [payload_send]; rfl
theorem pay_recv_own : (exRd (F := F) m ρ).payload (recvCell c) 0 () =
    (((rM : Memref sig .tc .vmem S1x256 .f32).view.loc ((c : Dev nD) : Thread nD τ)) ↦[(rM : Memref sig .tc .vmem S1x256 .f32).view.set]{fullShare} accV m ρ (pr c) : sProp 𝕄) := by
  rw [payload_recv]; rfl
theorem pay_recv_pr : (exRd (F := F) m ρ).payload (recvCell (pr c)) 0 () =
    (((rM : Memref sig .tc .vmem S1x256 .f32).view.loc ((pr c : Dev nD) : Thread nD τ)) ↦[(rM : Memref sig .tc .vmem S1x256 .f32).view.set]{fullShare} accV m ρ c : sProp 𝕄) := by
  rw [pay_recv_own, pr_pr]

end Tables

section Body

variable (K : Dev nD × Fin 3 → ℕ)

attribute [local sl_rounds] duties_bar duties_send duties_recv amount_bar amount_send amount_recv
  pay_bar_own pay_send pay_recv_own expect_bar expect_send expect_recv
attribute [local sl_rounds high] pay_bar_pr pay_recv_pr
attribute [local sl_canon] dev1_eq dev2_eq

omit [FloatOps F] in
theorem hz2 : (![0, 0] : Fin 2 → Nat) = fun _ => 0 := funext fun a => by fin_cases a <;> rfl

/-- The scratch row after the store of the partial means over whatever it held. -/
theorem acc_written (c : Dev nD) (fa : (cc0_scratch0 : Ref sig .tc).ty.Contents (Elt F)) :
    (aM : Memref sig .tc .vmem S1x256 .f32).view.writes (Elt F) fa
      [⟨Rect.unit (s := S1x256) ![0, 0] S1x256.size inb_S1x256_S1x256_0_0,
        k0_pay2 (View.readAt (Elt F) (xM : Memref sig .tc .vmem S512x256 .f32).view (Rect.unit (s := S512x256) ![0, 0] S512x256.size inb_S512x256_S512x256_0_0).toLoadRect (xstg m ρ c))⟩]
      = accV m ρ c := by
  rw [View.writes_singleton, show View.readAt (Elt F) (xM : Memref sig .tc .vmem S512x256 .f32).view (Rect.unit (s := S512x256) ![0, 0] S512x256.size inb_S512x256_S512x256_0_0).toLoadRect (xstg m ρ c) = xstg m ρ c from
    Memref.readAt_unit_zero (Elt F) cc0_stg0_0 hz2 _ _]
  exact Memref.write_access_unit_zero_univ (Elt F) cc0_scratch0 hz2 _ fa _

/-- The output row after the store of own partial means plus the partner's over whatever it held. -/
theorem out_written (c : Dev nD) (g1 : (cc0_stg1_0 : Ref sig .tc).ty.Contents (Elt F)) :
    (oM : Memref sig .tc .vmem S1x256 .f32).view.writes (Elt F) g1
      [⟨Rect.unit (s := S1x256) ![0, 0] S1x256.size inb_S1x256_S1x256_0_0,
        k0_pay1 (View.readAt (Elt F) (aM : Memref sig .tc .vmem S1x256 .f32).view (Rect.unit (s := S1x256) ![0, 0] S1x256.size inb_S1x256_S1x256_0_0).toLoadRect (accV m ρ c))
          (View.readAt (Elt F) (rM : Memref sig .tc .vmem S1x256 .f32).view (Rect.unit (s := S1x256) ![0, 0] S1x256.size inb_S1x256_S1x256_0_0).toLoadRect (accV m ρ (pr c)))⟩]
      = outAt m ρ c := by
  rw [View.writes_singleton,
    show View.readAt (Elt F) (aM : Memref sig .tc .vmem S1x256 .f32).view (Rect.unit (s := S1x256) ![0, 0] S1x256.size inb_S1x256_S1x256_0_0).toLoadRect (accV m ρ c) = accV m ρ c from
      Memref.readAt_unit_zero (Elt F) cc0_scratch0 hz2 _ _,
    show View.readAt (Elt F) (rM : Memref sig .tc .vmem S1x256 .f32).view (Rect.unit (s := S1x256) ![0, 0] S1x256.size inb_S1x256_S1x256_0_0).toLoadRect (accV m ρ (pr c)) = accV m ρ (pr c) from
      Memref.readAt_unit_zero (Elt F) cc0_scratch1 hz2 _ _]
  exact Memref.write_access_unit_zero_univ (Elt F) cc0_stg1_0 hz2 _ g1 _

/-- What the body leaves: both scratch rows at their contents, the two own cells at zero, nothing owed, the input
    row as found and the output row at own partial means plus the partner's. -/
def bodyEnd (c : Dev nD) : sProp 𝕄 :=
  iprop(((aM : Memref sig .tc .vmem S1x256 .f32).view.loc ((c : Dev nD) : Thread nD τ) ↦[(aM : Memref sig .tc .vmem S1x256 .f32).view.set]{fullShare} accV m ρ c) ∗ ((rM : Memref sig .tc .vmem S1x256 .f32).view.loc ((c : Dev nD) : Thread nD τ) ↦[(rM : Memref sig .tc .vmem S1x256 .f32).view.set]{fullShare} accV m ρ (pr c)) ∗ semVal (sendCell c) 0 ∗ semVal (recvCell c) 0
    ∗ (∃ W', owes (c : Thread nD τ) 0 W') ∗ ((xM : Memref sig .tc .vmem S512x256 .f32).view.loc ((c : Dev nD) : Thread nD τ) ↦[(xM : Memref sig .tc .vmem S512x256 .f32).view.set]{fullShare} xstg m ρ c) ∗ ((oM : Memref sig .tc .vmem S1x256 .f32).view.loc ((c : Dev nD) : Thread nD τ) ↦[(oM : Memref sig .tc .vmem S1x256 .f32).view.set]{fullShare} outAt m ρ c))

set_option maxHeartbeats 800000 in
theorem sound_body (c : Dev nD) (W : Waits sig Unit) (fa : (cc0_scratch0 : Ref sig .tc).ty.Contents (Elt F)) (fr : (cc0_scratch1 : Ref sig .tc).ty.Contents (Elt F))
    (g1 : (cc0_stg1_0 : Ref sig .tc).ty.Contents (Elt F)) (Kt : PUnit → sProp 𝕄) :
    iprop((cellInv ER (exRd m ρ) (K (c, 0)) (barCell c) ∗ cellInv ER (exRd m ρ) (K (c, 1)) (sendCell c) ∗ cellInv ER (exRd m ρ) (K (c, 2)) (recvCell c)
          ∗ cellInv ER (exRd m ρ) (K (pr c, 0)) (barCell (pr c)) ∗ cellInv ER (exRd m ρ) (K (pr c, 2)) (recvCell (pr c)))
        ∗ atPos ER (barCell c) 0 ∅ 0 ∗ atPos ER (sendCell c) 0 ∅ 0 ∗ atPos ER (recvCell c) 0 ∅ 0
        ∗ reached ER (barCell (pr c)) 0 ∗ reached ER (recvCell (pr c)) 0 ∗ reached ER (sendCell c) 0 ∗ reached ER (recvCell c) 0
        ∗ dutyTok ER (barCell (pr c)) 0 () ∗ dutyTok ER (recvCell (pr c)) 0 () ∗ dutyTok ER (sendCell c) 0 ()
        ∗ cred (tallyAt (barCell c) () 1) ∗ cred (tallyAt (recvCell c) () N) ∗ levAts L lv
        ∗ ((xM : Memref sig .tc .vmem S512x256 .f32).view.loc ((c : Dev nD) : Thread nD τ) ↦[(xM : Memref sig .tc .vmem S512x256 .f32).view.set]{fullShare} xstg m ρ c) ∗ ((oM : Memref sig .tc .vmem S1x256 .f32).view.loc ((c : Dev nD) : Thread nD τ) ↦[(oM : Memref sig .tc .vmem S1x256 .f32).view.set]{fullShare} g1)
        ∗ ((aM : Memref sig .tc .vmem S1x256 .f32).view.loc ((c : Dev nD) : Thread nD τ) ↦[(aM : Memref sig .tc .vmem S1x256 .f32).view.set]{fullShare} fa) ∗ ((rM : Memref sig .tc .vmem S1x256 .f32).view.loc ((c : Dev nD) : Thread nD τ) ↦[(rM : Memref sig .tc .vmem S1x256 .f32).view.set]{fullShare} fr)
        ∗ owes (c : Thread nD τ) (tallyAt (recvCell (pr c)) () N + tallyAt (barCell (pr c)) () 1) W
        ∗ (bodyEnd m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  iintro ⟨⟨#HIbar, #HIsnd, #HIrcv, #HIbarP, #HIrcvP⟩, HatB, HatS, HatV, #HrBP, #HrVP, #HrS, #HrV, HtBP, HtVP, HtS, HcB, HcV, #Hlev, Hx, Hout, Hacc, Hrcv, HO, Hk⟩
  have hmw := mayWait_bar (F := F) c
  sl_unfold [cc0_body]
  sl_exec
  rw [acc_written m ρ c fa]
  sl_exec (disch := simp only [dev2_eq])
  rw [out_written m ρ c g1]
  -- the two own cells close: their counters at zero are the core's again
  imod (Rounds.cell_close ER (exRd m ρ) (Set.mem_univ (K (c, 1))) (fun h => h) (R := 1) (duties_later m ρ (sendCell c))) $$ [HatS] with HzS
  · isplitr; · iexact HIsnd
    iexact HatS
  imod (Rounds.cell_close ER (exRd m ρ) (Set.mem_univ (K (c, 2))) (fun h => h) (R := 1) (duties_later m ρ (recvCell c))) $$ [HatV] with HzV
  · isplitr; · iexact HIrcv
    iexact HatV
  rw [wp_ret]; imodintro
  iapply Hk
  unfold bodyEnd
  isplitl [HatS_pay1]; · iexact HatS_pay1
  isplitl [HatV_pay1]; · iexact HatV_pay1
  isplitl [HzS]; · iexact HzS
  isplitl [HzV]; · iexact HzV
  isplitl [HO]; · iexists _; iexact HO
  isplitl [Hx]; · iexact Hx
  iexact Hout

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the point hands the body: the invariant before it, what the device owes, the two staged rows. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

set_option maxRecDepth 4000 in
/-- The library's body obligation on core `c`: the stepped body between the point's pre and post. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start ghost invs
  iintro ⟨⟨⟨⟨%K, ⟨HI, HatB, HatS, HatV, HrBP, HrVP, HrS, HrV, HtBP, HtVP, HtS⟩⟩, HcB, HcV, Hlev⟩, ⟨%fa, Hacc⟩, ⟨%fr, Hrcv⟩⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀
  ihave Hx := (Entails.of_eq (pts_whole_eq (F := F) c cc0_stg0_0 _).symm) $$ Hx
  ihave Hout := (Entails.of_eq (pts_whole_eq (F := F) c cc0_stg1_0 _).symm) $$ Hout
  iapply (sound_body m ρ K c W fa fr g1 (fun _ => bodyPost m ρ c))
  isplitl [HI]; · iexact HI
  isplitl [HatB]; · iexact HatB
  isplitl [HatS]; · iexact HatS
  isplitl [HatV]; · iexact HatV
  isplitl [HrBP]; · iexact HrBP
  isplitl [HrVP]; · iexact HrVP
  isplitl [HrS]; · iexact HrS
  isplitl [HrV]; · iexact HrV
  isplitl [HtBP]; · iexact HtBP
  isplitl [HtVP]; · iexact HtVP
  isplitl [HtS]; · iexact HtS
  isplitl [HcB]; · iexact HcB
  isplitl [HcV]; · iexact HcV
  isplitl [Hlev]; · iexact Hlev
  isplitl [Hx]; · iexact Hx
  isplitl [Hout]; · iexact Hout
  isplitl [Hacc]; · unfold accPts; iexact Hacc
  isplitl [Hrcv]; · unfold rcvPts; iexact Hrcv
  isplitl [HO]; · iexact HO
  unfold bodyEnd bodyPost Φ₁ Dat.owesAt Pipeline.owesWithin
  rw [show (dats m ρ 0 c).owed t₀.succ = 0 from rfl]
  iintro ⟨Ha, Hr, HzS, HzV, ⟨%W', HO⟩, Hx, Hout⟩
  isplitl [Ha Hr HzS HzV]
  · isplitl [Ha]; · unfold accPts; iexact Ha
    isplitl [Hr]; · unfold rcvPts landed; iexact Hr
    isplitl [HzS]; · iexact HzS
    iexact HzV
  isplitl [HO]
  · iexists W'
    isplitr; · ipureintro; exact fun _ _ => Or.inl trivial
    iexact HO
  ihave Hx := (Entails.of_eq (pts_whole_eq (F := F) c cc0_stg0_0 _)) $$ Hx
  ihave Hout := (Entails.of_eq (pts_whole_eq (F := F) c cc0_stg1_0 _)) $$ Hout
  isplitl [Hx]
  · iexists _; isplitr; · (ipureintro; rfl)
    iexact Hx
  iexists _; isplitr; · (ipureintro; rfl)
  iexact Hout

/-- info: 'Cert.KernelIdealProof.body_obligation' depends on axioms: [propext, Classical.choice, Quot.sound] -/
#guard_msgs in #print axioms body_obligation

end Body

end Cert.KernelIdealProof

end
-- ==== Proof.KernelIdealLaunch.lean ====
/-
The launch of the column-mean exchange on the four devices: the exchange's ghost state minted and dealt (each device
keeps its positions and takes the tokens of the duties IT pays: its partner's barrier and receive duties, its own send
duty), the launch credit counted, and the run of the whole program with every array's final contents named.
-/
import proofs.«900570_g7700000000000571_dist_mean_ax0_xy_m512_n256_v7x_xy2x2_bf16_1_alg».proof.Proof.KernelIdealBody

noncomputable section

namespace Cert.KernelIdealProof

open Cert.KernelIdeal Cert.KernelIdeal.Gen
open Cert.Mean (pr pr_pr pr_ne pr_val prEquiv)

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 3 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def exCells : Finset (GSem nD τ sig) := Finset.univ.map ⟨kcell, kcell_injective⟩

/-- A device's own cells' duty tokens as minted: one per cell. -/
abbrev tokOf (ck : Dev nD × Fin 3) : GSem nD τ sig × ℕ × Unit := (kcell ck, 0, ())
theorem tokOf_injective : Function.Injective (tokOf : Dev nD × Fin 3 → GSem nD τ sig × ℕ × Unit) :=
  fun a b h => kcell_injective (congrArg (fun x : GSem nD τ sig × ℕ × Unit => x.1) h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop(dutyTok ER (barCell c) 0 () ∗ dutyTok ER (sendCell c) 0 () ∗ dutyTok ER (recvCell c) 0 ())

/-- What the launch element deals device `c`. -/
def G (c : Dev nD) : sProp 𝕄 :=
  iprop((bigSep Finset.univ fun k : Fin 3 => roundState ER (exRd m ρ) (kcell (c, k)) 0)
    ∗ (bigSep Finset.univ fun k : Fin 3 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ex : BI.own (ER (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Fin 3 => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks c := by
    unfold exToks; rw [bigSep_map, bigSep_univ_prod]
    exact bigSep_congr fun c _ => by unfold toks; rw [bigSep_fin3]; rfl
  iintro HX
  imod (Rounds.fund ER (exRd m ρ) exCells exToks) $$ HX with ⟨Hst, Hr, Hat, Htok⟩
  imodintro
  ihave Hst' := (Entails.of_eq (hX fun g => roundState ER (exRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The send and receive semaphores are the kernel's own two; -/
theorem ownSems0_eq (c : Dev nD) : (Pipeline.ownSems0 (Ix := Unit) (Name := ℕ) (U := UU) (Lvl := ℕ) (Val := Elt F) (τ := τ) osem c : sProp 𝕄)
    = iprop(semVal (sendCell c) 0 ∗ semVal (recvCell c) 0) := by
  rw [Pipeline.ownSems0_eq_of_list c osem [0, 1] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 3 => semVal (kcell (c, k)) 0 : sProp 𝕄) := by
  rw [ownSems0_eq, unscopedSems0_eq, bigSep_fin3]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 3 => semVal (kcell (c, k)) 0) ∗ bigSep Finset.univ fun k : Fin 3 => roundState ER (exRd m ρ) (kcell (c, k)) 0)
      ⊢ (|={Set.univ}=> bigSep Finset.univ fun k => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 3 → ℕ) : sProp 𝕄 :=
  iprop((bigSep Finset.univ fun ck : Dev nD × Fin 3 => cellInv ER (exRd m ρ) (K ck) (kcell ck))
    ∗ bigSep Finset.univ fun ck : Dev nD × Fin 3 => reached ER (kcell ck) 0)

instance records_persistent (K : Dev nD × Fin 3 → ℕ) : BI.Persistent (records m ρ K) := by unfold records; infer_instance

theorem inv_at (K : Dev nD × Fin 3 → ℕ) (ck : Dev nD × Fin 3) :
    (bigSep Finset.univ fun ck : Dev nD × Fin 3 => (cellInv ER (exRd m ρ) (K ck) (kcell ck) : sProp 𝕄)) ⊢ cellInv ER (exRd m ρ) (K ck) (kcell ck) :=
  bigSep_elim (Finset.mem_univ ck)
omit [FloatOps F] in
theorem reached_at (ck : Dev nD × Fin 3) :
    (bigSep Finset.univ fun ck : Dev nD × Fin 3 => (reached ER (kcell ck) 0 : sProp 𝕄)) ⊢ reached ER (kcell ck) 0 :=
  bigSep_elim (Finset.mem_univ ck)

/-- What stays with device `c`: its positions, and the tokens of the duties IT pays. -/
def payToks (c : Dev nD) : sProp 𝕄 :=
  iprop(dutyTok ER (barCell (pr c)) 0 () ∗ dutyTok ER (recvCell (pr c)) 0 () ∗ dutyTok ER (sendCell c) 0 ())
def linear (c : Dev nD) : sProp 𝕄 :=
  iprop((atPos ER (barCell c) 0 ∅ 0 ∗ atPos ER (sendCell c) 0 ∅ 0 ∗ atPos ER (recvCell c) 0 ∅ 0) ∗ payToks c)

theorem ghost_intro (K : Dev nD × Fin 3 → ℕ) (c : Dev nD) : iprop(records m ρ K ∗ linear c) ⊢ G' m ρ c := by
  unfold records linear payToks G' ghost invs
  iintro ⟨⟨#HI, #HR⟩, ⟨HaB, HaS, HaV⟩, HtBP, HtVP, HtS⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (pr c, 0)); iexact HI
    iapply (inv_at m ρ K (pr c, 2)); iexact HI
  isplitl [HaB]; · iexact HaB
  isplitl [HaS]; · iexact HaS
  isplitl [HaV]; · iexact HaV
  isplitr; · iapply (reached_at (F := F) (pr c, 0)); iexact HR
  isplitr; · iapply (reached_at (F := F) (pr c, 2)); iexact HR
  isplitr; · iapply (reached_at (F := F) (c, 1)); iexact HR
  isplitr; · iapply (reached_at (F := F) (c, 2)); iexact HR
  isplitl [HtBP]; · iexact HtBP
  isplitl [HtVP]; · iexact HtVP
  iexact HtS

omit [FloatOps F] in
/-- The tokens dealt across the pairing: a barrier's token and a receive cell's token go to the partner, who pays them. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_univ_equiv prEquiv (fun c : Dev nD => (dutyTok ER (barCell c) 0 () : sProp 𝕄)),
    bigSep_univ_equiv prEquiv (fun c : Dev nD => (dutyTok ER (recvCell c) 0 () : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (exRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 3 => iprop(∃ κ : ℕ, cellInv ER (exRd m ρ) κ (kcell ck))),
    bigSep_congr (s := Finset.univ) (fun (c : Dev nD) _ => bigSep_sep' Finset.univ (fun k : Fin 3 => (atPos ER (kcell (c, k)) 0 ∅ 0 : sProp 𝕄)) (fun k => reached ER (kcell (c, k)) 0)),
    bigSep_sep', ← bigSep_univ_prod (fun ck : Dev nD × Fin 3 => (reached ER (kcell ck) 0 : sProp 𝕄))]
  iintro ⟨HI, ⟨Hat, #HR⟩, Htok⟩
  ihave HK := (BI.bigSep_exists_pi Finset.univ (fun (ck : Dev nD × Fin 3) (κ : ℕ) => (cellInv ER (exRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 3 => (atPos ER (kcell (c, k)) 0 ∅ 0 : sProp 𝕄)) payToks).symm).trans
      (bigSep_mono fun c _ => show _ ⊢ linear c from Entails.of_eq (by unfold linear; rw [bigSep_fin3])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

omit [FloatOps F] in
theorem bar_eq_iff {a b : Dev nD} : Iff (barCell a = barCell b) (a = b) :=
  ⟨fun h => Fin.ext (congrArg (fun g : GSem nD τ sig => g.1.1.val) h), fun h => h ▸ rfl⟩
omit [FloatOps F] in
theorem recv_eq_iff {a b : Dev nD} : Iff (recvCell a = recvCell b) (a = b) :=
  ⟨fun h => Fin.ext (congrArg (fun g : GSem nD τ sig => g.1.1.val) h), fun h => h ▸ rfl⟩

omit [FloatOps F] in
/-- What device `d` owes device `c`'s barrier cell: a unit if it is `c`'s partner. -/
theorem owed_bar (d c : Dev nD) : O₀ d (barCell c) () = if d = pr c then 1 else 0 := by
  unfold O₀
  rw [Pi.add_apply, Finsupp.add_apply, tallyAt_ne_cell (fun h => recv_ne_bar (congrArg Prod.snd h).symm), tallyAt_apply, Finsupp.zero_apply, Nat.zero_add]
  by_cases h : d = pr c
  · subst h; rw [pr_pr, if_pos ⟨rfl, rfl⟩, if_pos rfl]
  · rw [if_neg (fun ⟨h1, _⟩ => h (by rw [bar_eq_iff.mp h1, pr_pr])), if_neg h]

omit [FloatOps F] in
theorem owed_recv (d c : Dev nD) : O₀ d (recvCell c) () = if d = pr c then N else 0 := by
  unfold O₀
  rw [Pi.add_apply, Finsupp.add_apply, tallyAt_apply, tallyAt_ne_cell (fun h => recv_ne_bar (congrArg Prod.snd h)), Finsupp.zero_apply, Nat.add_zero]
  by_cases h : d = pr c
  · subst h; rw [pr_pr, if_pos ⟨rfl, rfl⟩, if_pos rfl]
  · rw [if_neg (fun ⟨h1, _⟩ => h (by rw [recv_eq_iff.mp h1, pr_pr])), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (pr c) fun _ => 1, if_pos (Finset.mem_univ _)]

omit [FloatOps F] in
theorem launch_recv (c : Dev nD) :
    tallyOn (recvCell c) (launchCredit (Pipeline.owing O₀) 0 (recvCell c)) = (tallyAt (recvCell c) () N : CellTallies nD τ sig Unit) := by
  unfold tallyAt; refine congrArg _ (Finsupp.ext fun u => ?_); cases u
  rw [Pipeline.launchCredit_owing, Finsupp.single_eq_same, Finset.sum_congr rfl fun d _ => owed_recv d c, Finset.sum_ite_eq' Finset.univ (pr c) fun _ => N,
    if_pos (Finset.mem_univ _)]

omit [FloatOps F] in
theorem creds (c : Dev nD) :
    (Pipeline.launchCred O₀ c : sProp 𝕄) ⊢ iprop(cred (tallyAt (barCell c) () 1) ∗ cred (tallyAt (recvCell c) () N)) := by
  unfold Pipeline.launchCred
  rw [bigSep_univ_at _ (SemLoc.reg barS), launch_bar]
  refine sep_mono_right ?_
  rw [← launch_recv]
  exact bigSep_elim (Finset.mem_erase.mpr ⟨recv_ne_bar, Finset.mem_univ _⟩)

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%fa, Ha⟩, ⟨%fr, Hr⟩⟩
  isplitl [Hs]; · iexact Hs
  isplitl [Ha]
  · iexists fa; rw [accPts_eq]; iexact Ha
  iexists fr; rw [rcvPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Ha, Hr, HzS, HzV⟩
  isplitr; · iempintro
  isplitl [HzS HzV]
  · isplitl [HzS] <;> iassumption
  isplitl [Ha]
  · iexists (accV m ρ c); rw [← accPts_eq]; iexact Ha
  iexists (landed m ρ c); rw [← rcvPts_eq]; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of four devices, for any float values, from any memory with zero counters: every weakly fair
    execution of the program — the four kernels signalling their partners, exchanging their partial column means and
    adding them — terminates, and every final state has each window's array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdealProof

end
-- ==== Proof.KernelIdealResult.lean ====
/-
What the run leaves in the arrays, as functions of the inputs: the input block unchanged; the result row of device c
its own partial column means plus its partner's, each the sum of that device's 512 rows times 2⁻¹⁰.
-/
import proofs.«900570_g7700000000000571_dist_mean_ax0_xy_m512_n256_v7x_xy2x2_bf16_1_alg».proof.Proof.KernelIdealLaunch
import proofs.«900570_g7700000000000571_dist_mean_ax0_xy_m512_n256_v7x_xy2x2_bf16_1_alg».proof.Proof.Gen.KernelIdeal.Points
import Idealize.ShloMosaic.Lib.Pipeline.Value

noncomputable section

namespace Cert.KernelIdealProof

open Cert.KernelIdeal Cert.KernelIdeal.Gen
open Cert.Mean (pr pr_pr pr_ne pr_val prEquiv)
open Idealize.ShloMosaic
open Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

omit [FloatOps F] in
/-- The one block of the input window is the whole input array. -/
theorem xstg_eq (c : Dev nD) : xstg m ρ c = m ((c : Thread nD τ).loc main_arg0) := by
  unfold xstg
  exact Memref.read_access_unit_zero (Elt F) main_arg0 (off := fun a => win0_0.index (0 : Fin 1) a * win0_0.size a) (funext fun a => by fin_cases a <;> rfl) _ _

/-- The one write-back of the output window overwrites the whole result array with what the body left. -/
theorem finalA_out (c : Dev nD) : finalA m ρ c (1 : Fin 2) = outAt m ρ c := by
  show (dats m ρ 0 c).arrAt 1 (t₀.val + 1) = _
  rw [Dat.arrAt_succ, if_pos (flush0_1 t₀)]
  show View.write (Elt F) ((cfg0.win 1).blk t₀).view _ (outAt m ρ c) Finset.univ = outAt m ρ c
  exact Memref.write_access_unit_zero_univ (Elt F) main_v1 (off := fun a => win0_1.index (0 : Fin 1) a * win0_1.size a) (funext fun a => by fin_cases a <;> rfl) _ _ _

/-- The result row in terms of the two devices' input blocks. -/
theorem outAt_eq (c : Dev nD) :
    outAt m ρ c = k0_pay1 (k0_pay2 (m ((c : Thread nD τ).loc main_arg0))) (k0_pay2 (m (((pr c : Dev nD) : Thread nD τ).loc main_arg0))) := by
  unfold outAt accV; rw [xstg_eq, xstg_eq]

/-- The run with every array named: each device's result row is its partial means plus its partner's, its input unchanged. -/
theorem run_values : θ_run defs (onTc (τ := τ) (main (F := F))) ⟨m, fun _ => 0, ρ⟩ (fun r => ∀ c : Dev nD,
    r.2.mem ((c : Thread nD τ).loc main_v1) = k0_pay1 (k0_pay2 (m ((c : Thread nD τ).loc main_arg0))) (k0_pay2 (m (((pr c : Dev nD) : Thread nD τ).loc main_arg0)))
    ∧ r.2.mem ((c : Thread nD τ).loc main_arg0) = m ((c : Thread nD τ).loc main_arg0)) :=
  (θ_run defs _ _).mono (fun _ h c => ⟨((h c (1 : Fin 2)).trans (finalA_out m ρ c)).trans (outAt_eq m ρ c), (h c (0 : Fin 2)).trans (finalA_x m ρ c)⟩)
    (run_main m ρ)

/-- info: 'Cert.KernelIdealProof.run_values' depends on axioms: [propext, Classical.choice, Quot.sound] -/
#guard_msgs in #print axioms run_values

end Cert.KernelIdealProof

end
-- ==== Proof.RefValue.lean ====
/-
The one-device reference's run at the extended reals: it ends with its result array at the column means of the whole
input — (0 + the sum of all 1024 rows) / 1024, stage by stage — and its input unchanged.
-/
import proofs.«900570_g7700000000000571_dist_mean_ax0_xy_m512_n256_v7x_xy2x2_bf16_1_alg».proof.Proof.Gen.ReferenceIdeal.Run
import proofs.«900570_g7700000000000571_dist_mean_ax0_xy_m512_n256_v7x_xy2x2_bf16_1_alg».proof.Proof.Gen.ReferenceIdeal.Read

noncomputable section

namespace Cert.MeanRef

open Cert.ReferenceIdeal Cert.ReferenceIdeal.Gen
open Idealize.ShloMosaic Idealize.ShloMosaic.TcCoe Idealize.SL.Sem

/-- The reference's run, its result named as the last stage of its operations read one at a time. -/
theorem run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v3) = Cert.ReferenceIdeal.Read.val_main_v3 (F := Ideal) (m' ((c.tc : Thread nD τ).loc main_arg0))
      ∧ r.2.mem ((c.tc : Thread nD τ).loc main_arg0) = m' ((c.tc : Thread nD τ).loc main_arg0)) :=
  (θ_run defs _ _).mono (fun _ h c => ⟨(h c).1.trans (Cert.ReferenceIdeal.Read.val_main_v3_eq _), (h c).2⟩)
    (Cert.ReferenceIdeal.Value.run (F := Ideal) m' ρ')

end Cert.MeanRef

end
-- ==== Proof.ValueLaw.lean ====
/-
The arithmetic of the column mean over 1024 rows held as two blocks of 512 rows.

For a column `f : Fin 1024 → EReal` and the scale `k = 2⁻¹⁰`,
  (∑ over one half of the rows) · k + (∑ over the other half) · k = (0 + ∑ over all rows) / 1024
on the extended reals, whichever half comes first. The scale is a nonnegative real, so the product distributes
over the sum of the two half sums at every extended real (no finiteness is needed); the quotient by the real
1024 is the product with its reciprocal; the sum over `Fin 1024` splits at 512; and addition commutes.
-/
import Idealize.ShloMosaic.PureOps.Ideal
import Mathlib.Data.EReal.Operations
import Mathlib.Algebra.BigOperators.Fin

noncomputable section

namespace Cert.MeanValue

open Idealize.ShloMosaic
open scoped BigOperators

/-- Row `r` of the half numbered `a` (read modulo 2) among the 1024 rows. -/
def rowOf (a : ℕ) (r : Fin 512) : Fin 1024 :=
  ⟨a % 2 * 512 + r.val, by have := r.isLt; have := Nat.mod_lt a (show 0 < 2 by decide); omega⟩

/-- Column `j` of the half numbered `b` (read modulo 2) among the 512 columns. -/
def colOf (b : ℕ) (j : Fin 256) : Fin 512 :=
  ⟨b % 2 * 256 + j.val, by have := j.isLt; have := Nat.mod_lt b (show 0 < 2 by decide); omega⟩

theorem rowOf_val (a : ℕ) (r : Fin 512) : (rowOf a r).val = a % 2 * 512 + r.val := rfl
theorem colOf_val (b : ℕ) (j : Fin 256) : (colOf b j).val = b % 2 * 256 + j.val := rfl

/-- Only the parity of the half's number matters. -/
theorem rowOf_congr {a a' : ℕ} (h : a % 2 = a' % 2) : rowOf a = rowOf a' :=
  funext fun r => Fin.ext (by rw [rowOf_val, rowOf_val, h])

/-- Only the parity of the half's number matters. -/
theorem colOf_congr {b b' : ℕ} (h : b % 2 = b' % 2) : colOf b = colOf b' :=
  funext fun j => Fin.ext (by rw [colOf_val, colOf_val, h])

/-- The word `0x3A800000` is `2⁻¹⁰ = 1/1024`. -/
theorem scale_eq : Ideal.ofBits .f32 0x3A800000#32 = ((1 / 1024 : ℝ) : EReal) := by
  simp [Ideal.ofBits, Ideal.ieee, -EReal.coe_mul]; norm_num

/-- The word `0x44800000` is `2¹⁰ = 1024`. -/
theorem count_eq : Ideal.ofBits .f32 0x44800000#32 = ((1024 : ℝ) : EReal) := by
  simp [Ideal.ofBits, Ideal.ieee, -EReal.coe_mul]; norm_num

/-- The sum over all 1024 rows is the sum over the first 512 plus the sum over the last 512. -/
theorem sum_rows (f : Fin 1024 → EReal) :
    ∑ t : Fin 1024, f t = ∑ r : Fin 512, f (rowOf 0 r) + ∑ r : Fin 512, f (rowOf 1 r) := by
  have h := Fin.sum_univ_add (a := 512) (b := 512) (f : Fin (512 + 512) → EReal)
  refine h.trans ?_
  congr 1

/-- The mean of a column from its two half sums, each already scaled by `2⁻¹⁰`, in either order. -/
theorem mean_law (f : Fin 1024 → EReal) (a : ℕ) :
    (∑ r : Fin 512, f (rowOf a r)) * Ideal.ofBits .f32 0x3A800000#32
        + (∑ r : Fin 512, f (rowOf (a + 1) r)) * Ideal.ofBits .f32 0x3A800000#32
      = Ideal.div (0 + ∑ t : Fin 1024, f t) (Ideal.ofBits .f32 0x44800000#32) := by
  have hk0 : (0 : EReal) ≤ ((1 / 1024 : ℝ) : EReal) := by exact_mod_cast (by norm_num : (0 : ℝ) ≤ 1 / 1024)
  have hkt : ((1 / 1024 : ℝ) : EReal) ≠ ⊤ := EReal.coe_ne_top _
  rw [scale_eq, count_eq, Ideal.div_coe (by norm_num : (1024 : ℝ) ≠ 0), zero_add,
    ← EReal.right_distrib_of_nonneg_of_ne_top hk0 hkt, sum_rows f]
  rcases Nat.mod_two_eq_zero_or_one a with h | h
  · rw [rowOf_congr (a := a) (a' := 0) (by omega), rowOf_congr (a := a + 1) (a' := 1) (by omega)]
  · rw [rowOf_congr (a := a) (a' := 1) (by omega), rowOf_congr (a := a + 1) (a' := 0) (by omega), add_comm]

end Cert.MeanValue

end
-- ==== Proof.ValueBridge.lean ====
/-
The value bridge of the column mean on the 2 × 2 mesh.

The whole input `X` has 1024 rows and 512 columns; device `c` holds the block of rows
`[512·(c/2), 512·(c/2) + 512)` and columns `[256·(c%2), 256·(c%2) + 256)`. Each device sums its 512 rows
column by column and scales the sums by `2⁻¹⁰`; its partner, the device with the other half of the rows and the
same columns, does the same; the stored result is the sum of the two scaled half sums. The reference divides
the sum over all 1024 rows by 1024, and device `c`'s share of it is the columns `[256·(c%2), 256·(c%2) + 256)`.
Column by column the two agree by the law of the half sums (`mean_law`): it holds at every extended real, so
the finiteness of the input is not used.
-/
import proofs.«900570_g7700000000000571_dist_mean_ax0_xy_m512_n256_v7x_xy2x2_bf16_1_alg».proof.Defs
import proofs.«900570_g7700000000000571_dist_mean_ax0_xy_m512_n256_v7x_xy2x2_bf16_1_alg».proof.Proof.Gen.KernelIdeal.Skeleton
import proofs.«900570_g7700000000000571_dist_mean_ax0_xy_m512_n256_v7x_xy2x2_bf16_1_alg».proof.Proof.Gen.ReferenceIdeal.Read
import proofs.«900570_g7700000000000571_dist_mean_ax0_xy_m512_n256_v7x_xy2x2_bf16_1_alg».proof.Proof.Partner
import proofs.«900570_g7700000000000571_dist_mean_ax0_xy_m512_n256_v7x_xy2x2_bf16_1_alg».proof.Proof.Gen.Pre_finite_inputs_Kernel
import proofs.«900570_g7700000000000571_dist_mean_ax0_xy_m512_n256_v7x_xy2x2_bf16_1_alg».proof.Proof.Gen.KernelIdeal
import proofs.«900570_g7700000000000571_dist_mean_ax0_xy_m512_n256_v7x_xy2x2_bf16_1_alg».proof.Proof.Gen.ReferenceIdeal
import proofs.«900570_g7700000000000571_dist_mean_ax0_xy_m512_n256_v7x_xy2x2_bf16_1_alg».proof.Proof.ValueLaw
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section
namespace Cert.MeanValue
open Idealize.ShloMosaic Idealize.ShloMosaic.ValueIdx Cert.Mean
open scoped BigOperators

/-! ## Which block a device holds -/

/-- Device `c` holds the row half `c / 2` … -/
theorem block_row (c : Dev 4) : ((Layout.meshBlock [2, 2] ![[0], [1]] c) 0).val = c.val / 2 % 2 := by
  revert c; decide
/-- … and the column half `c % 2` of the input; -/
theorem block_col (c : Dev 4) : ((Layout.meshBlock [2, 2] ![[0], [1]] c) 1).val = c.val % 2 := by
  revert c; decide
/-- of the result, which has one row, the column half `c % 2`. -/
theorem out_block_col (c : Dev 4) : ((Layout.meshBlock [2, 2] ![[], [1]] c) 1).val = c.val % 2 := by
  revert c; decide

/-- The partner holds the other row half … -/
theorem pr_row (c : Dev 4) : (pr c).val / 2 % 2 = (c.val / 2 + 1) % 2 := by revert c; decide
/-- … and the same column half. -/
theorem pr_col (c : Dev 4) : (pr c).val % 2 = c.val % 2 := by revert c; decide

/-- Entry `(r, j)` of device `c`'s block of the input is entry `(512·(c/2) + r, 256·(c%2) + j)` of the input. -/
theorem in_block_apply {α : Type} (X : (⟨2, ![1024, 512]⟩ : Shape).Idx → α) (c : Dev 4) (r : Fin 512) (j : Fin 256) :
    (Layout.blockN ⟨2, ![512, 256]⟩ ⟨2, ![1024, 512]⟩ (Layout.meshBlock [2, 2] ![[0], [1]] c) X) (ix2 r j)
      = X (ix2 (rowOf (c.val / 2) r) (colOf c.val j)) := by
  rw [Layout.blockN_apply]
  refine congrArg X (funext fun a => Fin.ext ?_)
  match a with
  | ⟨0, _⟩ =>
    show ((Layout.meshBlock [2, 2] ![[0], [1]] c) 0).val * 512 + r.val = c.val / 2 % 2 * 512 + r.val
    rw [block_row]
  | ⟨1, _⟩ =>
    show ((Layout.meshBlock [2, 2] ![[0], [1]] c) 1).val * 256 + j.val = c.val % 2 * 256 + j.val
    rw [block_col]

/-- Entry `(u, j)` of device `c`'s block of the one-row result is entry `(u, 256·(c%2) + j)` of the result. -/
theorem out_block_apply {α : Type} (Y : (⟨2, ![1, 512]⟩ : Shape).Idx → α) (c : Dev 4) (u : Fin 1) (j : Fin 256) :
    (Layout.blockN ⟨2, ![1, 256]⟩ ⟨2, ![1, 512]⟩ (Layout.meshBlock [2, 2] ![[], [1]] c) Y) (ix2 u j)
      = Y (ix2 u (colOf c.val j)) := by
  rw [Layout.blockN_apply]
  refine congrArg Y (funext fun a => Fin.ext ?_)
  match a with
  | ⟨0, _⟩ =>
    show 0 * 1 + u.val = u.val
    omega
  | ⟨1, _⟩ =>
    show ((Layout.meshBlock [2, 2] ![[], [1]] c) 1).val * 256 + j.val = c.val % 2 * 256 + j.val
    rw [out_block_col]

/-! ## The two programs at an index -/

/-- One device's share: at column `j`, the sum of its block's 512 rows, scaled by `2⁻¹⁰`. -/
theorem pay2_apply (x : FVec Ideal Cert.KernelIdeal.S512x256 .f32) (u : Fin 1) (j : Fin 256) :
    Cert.KernelIdeal.Gen.k0_pay2 (F := Ideal) x (ix2 u j)
      = (∑ r : Fin 512, x (ix2 r j)) * Ideal.ofBits .f32 0x3A800000#32 := by
  unfold Cert.KernelIdeal.Gen.k0_pay2
  simp only [shapeCast_self]
  rw [mulf_apply, shapeCast_a_1a_apply, broadcast_apply]
  show _ * Ideal.ofBits .f32 0x3A800000#32 = _
  refine congrArg (· * Ideal.ofBits .f32 0x3A800000#32) ?_
  refine (Ideal.multiReduction_add_single x 0x00000000#32 Cert.KernelIdeal.Gen.reduces_S512x256_S256
    (.inl rfl) rfl (ix1 j)).trans ?_
  exact Finset.sum_congr rfl fun r _ => congrArg x
    (funext fun a => Fin.ext (by match a with | ⟨0, _⟩ => rfl | ⟨1, _⟩ => rfl))

/-- The reference at column `q`: zero plus the sum of all 1024 rows, divided by 1024. -/
theorem ref_apply (X : (⟨Cert.ReferenceIdeal.S1024x512, .f32⟩ : BufTy).Contents (Elt Ideal)) (u : Fin 1) (q : Fin 512) :
    Cert.ReferenceIdeal.Read.val_main_v3 (F := Ideal) X (ix2 u q)
      = Ideal.div (0 + ∑ t : Fin 1024, X (ix2 t q)) (Ideal.ofBits .f32 0x44800000#32) := by
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  show Ideal.div (Ideal.ofBits .f32 0x00000000#32 + _) (Ideal.ofBits .f32 0x44800000#32) = _
  rw [Ideal.ofBits_zero_f32]
  refine congrArg (fun s => Ideal.div (0 + s) (Ideal.ofBits .f32 0x44800000#32)) ?_
  exact Finset.sum_congr rfl fun t _ => congrArg X
    (funext fun a => Fin.ext (by match a with | ⟨0, _⟩ => rfl | ⟨1, _⟩ => rfl))

/-! ## The bridge -/

/-- What device `c` stores — its own scaled half sums plus its partner's — is its block of the reference's mean. -/
theorem out_eq_block
    (X : (⟨Cert.ReferenceIdeal.S1024x512, .f32⟩ : BufTy).Contents (Elt Ideal))
    (hfin : ∀ c : Dev 4, Cert.Pre_finite_inputs_Kernel.fn (F := Ideal)
        (Layout.blockN ⟨2, ![512, 256]⟩ ⟨2, ![1024, 512]⟩ (Layout.meshBlock [2, 2] ![[0], [1]] c) X) = (fun _ => 1#1))
    (c : Dev 4) :
    Cert.KernelIdeal.Gen.k0_pay1 (F := Ideal)
        (Cert.KernelIdeal.Gen.k0_pay2 (F := Ideal) (Layout.blockN ⟨2, ![512, 256]⟩ ⟨2, ![1024, 512]⟩ (Layout.meshBlock [2, 2] ![[0], [1]] c) X))
        (Cert.KernelIdeal.Gen.k0_pay2 (F := Ideal) (Layout.blockN ⟨2, ![512, 256]⟩ ⟨2, ![1024, 512]⟩ (Layout.meshBlock [2, 2] ![[0], [1]] (pr c)) X))
      = Layout.blockN ⟨2, ![1, 256]⟩ ⟨2, ![1, 512]⟩ (Layout.meshBlock [2, 2] ![[], [1]] c) (Cert.ReferenceIdeal.Read.val_main_v3 (F := Ideal) X) := by
  funext i
  obtain ⟨u, j, rfl⟩ : ∃ (u : Fin 1) (j : Fin 256), i = ix2 u j := ⟨i 0, i 1, eq_ix2 i⟩
  unfold Cert.KernelIdeal.Gen.k0_pay1
  show addf _ _ (ix2 u j) = _
  rw [addf_apply, pay2_apply, pay2_apply, out_block_apply, ref_apply]
  simp only [in_block_apply]
  rw [rowOf_congr (pr_row c), colOf_congr (pr_col c)]
  exact mean_law (fun t => X (ix2 t (colOf c.val j))) (c.val / 2)

end Cert.MeanValue
end

/-- info: 'Cert.MeanValue.out_eq_block' depends on axioms: [propext, Classical.choice, Quot.sound] -/
#guard_msgs in #print axioms Cert.MeanValue.out_eq_block
-- ==== Proof.lean ====
/-
The column-mean kernel on the 2 × 2 mesh against the one-device mean.

Device (x, y) holds block (x, y) of the 1024 × 512 input: 512 rows, 256 columns. It sums its rows, scales by 2⁻¹⁰,
exchanges that row with device (1 − x, y) and adds the two rows: the means of columns [256·y, 256·y + 256) over all
1024 rows, which is column block y of the reference's (0 + sum of the rows) / 1024. Over the extended reals the two
agree at every input: the row sum splits at row 512, addition commutes, and a nonnegative finite factor distributes
over a sum whatever the summands: the value lemma is handed the precondition (each device's block finite) as its
statement asks, and its proof has no need of it.

The three frames are the runs with the values dropped; the idealization rewrote no operation, so `preserves` is trivial.
-/
import proofs.«900570_g7700000000000571_dist_mean_ax0_xy_m512_n256_v7x_xy2x2_bf16_1_alg».proof.Defs
import proofs.«900570_g7700000000000571_dist_mean_ax0_xy_m512_n256_v7x_xy2x2_bf16_1_alg».proof.Proof.Gen.Kernel
import proofs.«900570_g7700000000000571_dist_mean_ax0_xy_m512_n256_v7x_xy2x2_bf16_1_alg».proof.Proof.Gen.KernelIdeal
import proofs.«900570_g7700000000000571_dist_mean_ax0_xy_m512_n256_v7x_xy2x2_bf16_1_alg».proof.Proof.Gen.ReferenceIdeal
import proofs.«900570_g7700000000000571_dist_mean_ax0_xy_m512_n256_v7x_xy2x2_bf16_1_alg».proof.Proof.Gen.Pre_finite_inputs_Kernel
import proofs.«900570_g7700000000000571_dist_mean_ax0_xy_m512_n256_v7x_xy2x2_bf16_1_alg».proof.Proof.Gen.Pre_finite_inputs_ReferenceIdeal
import proofs.«900570_g7700000000000571_dist_mean_ax0_xy_m512_n256_v7x_xy2x2_bf16_1_alg».proof.Proof.KernelResult
import proofs.«900570_g7700000000000571_dist_mean_ax0_xy_m512_n256_v7x_xy2x2_bf16_1_alg».proof.Proof.KernelIdealResult
import proofs.«900570_g7700000000000571_dist_mean_ax0_xy_m512_n256_v7x_xy2x2_bf16_1_alg».proof.Proof.RefValue
import proofs.«900570_g7700000000000571_dist_mean_ax0_xy_m512_n256_v7x_xy2x2_bf16_1_alg».proof.Proof.ValueBridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  -- the word-level kernel runs and leaves its input
  fun m ρ _ => (θ_run Cert.Kernel.defs _ _).mono (fun _ h c => (h c).2) (Cert.KernelProof.run_values (F := Bits) m ρ),
  -- so does the idealized kernel
  fun m ρ _ => (θ_run Cert.KernelIdeal.defs _ _).mono (fun _ h c => (h c).2) (Cert.KernelIdealProof.run_values (F := Ideal) m ρ),
  -- and the reference
  fun m ρ _ => (θ_run Cert.ReferenceIdeal.defs _ _).mono (fun _ h c => (h c).2) (Cert.MeanRef.run m ρ),
  trivial,
  -- the values: each device's result row is its column block of the reference's means
  fun m ρ m' ρ' hpre hagree =>
    ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)),
      (θ_run Cert.KernelIdeal.defs _ _).mono (fun _ h c => ⟨by
          rw [(h c).1, hagree c, hagree (Cert.Mean.pr c)]
          exact Cert.MeanValue.out_eq_block _ (fun d => by rw [← hagree d]; exact hpre d) c, (h c).2⟩)
        (Cert.KernelIdealProof.run_values (F := Ideal) m ρ),
      (θ_run Cert.ReferenceIdeal.defs _ _).mono (fun _ h => h 0) (Cert.MeanRef.run m' ρ')⟩⟩

end Cert.Proof

end
